-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S1x1 : Shape := ⟨2, ![1, 1]⟩
abbrev S1x1x1024x1024 : Shape := ⟨4, ![1, 1, 1024, 1024]⟩
abbrev S1024x1024 : Shape := ⟨2, ![1024, 1024]⟩
abbrev S1x1024 : Shape := ⟨2, ![1, 1024]⟩
abbrev S1026x1024 : Shape := ⟨2, ![1026, 1024]⟩
abbrev S1024x1 : Shape := ⟨2, ![1024, 1]⟩
abbrev S1024x1026 : Shape := ⟨2, ![1024, 1026]⟩
abbrev S1024 : Shape := ⟨1, ![1024]⟩
abbrev S1 : Shape := ⟨1, ![1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1, .f32⟩
  | .local _ .vmem, ⟨5, _⟩ => ⟨S1x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  slices_S1024x1024_o0_0_S1x1024 : S1024x1024.Slices ![0, 0] S1x1024
  slices_S1024x1024_o1023_0_S1x1024 : S1024x1024.Slices ![1023, 0] S1x1024
  concatenates_S1x1024_S1024x1024_S1x1024_S1026x1024_d0 : Shape.Concatenates [S1x1024, S1024x1024, S1x1024] S1026x1024 0
  slices_S1026x1024_o0_0_S1024x1024 : S1026x1024.Slices ![0, 0] S1024x1024
  slices_S1026x1024_o1_0_S1024x1024 : S1026x1024.Slices ![1, 0] S1024x1024
  slices_S1026x1024_o2_0_S1024x1024 : S1026x1024.Slices ![2, 0] S1024x1024
  slices_S1024x1024_o0_0_S1024x1 : S1024x1024.Slices ![0, 0] S1024x1
  slices_S1024x1024_o0_1023_S1024x1 : S1024x1024.Slices ![0, 1023] S1024x1
  concatenates_S1024x1_S1024x1024_S1024x1_S1024x1026_d1 : Shape.Concatenates [S1024x1, S1024x1024, S1024x1] S1024x1026 1
  slices_S1024x1026_o0_2_S1024x1024 : S1024x1026.Slices ![0, 2] S1024x1024
  slices_S1024x1026_o0_0_S1024x1024 : S1024x1026.Slices ![0, 0] S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S32x1024x1024 : Shape := ⟨3, ![32, 1024, 1024]⟩
abbrev S_ : Shape := ⟨0, ![]⟩
abbrev S32x1x1024 : Shape := ⟨3, ![32, 1, 1024]⟩
abbrev S32x1025x1024 : Shape := ⟨3, ![32, 1025, 1024]⟩
abbrev S32x1026x1024 : Shape := ⟨3, ![32, 1026, 1024]⟩
abbrev S32x1026x1 : Shape := ⟨3, ![32, 1026, 1]⟩
abbrev S32x1026x1025 : Shape := ⟨3, ![32, 1026, 1025]⟩
abbrev S32x1026x1026 : Shape := ⟨3, ![32, 1026, 1026]⟩
abbrev S32x1024x1026 : Shape := ⟨3, ![32, 1024, 1026]⟩

abbrev nBuf : Space → Nat
  | .hbm => 77
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1024x1024, .f32⟩
  | .hbm, ⟨3, _⟩ => ⟨S_, .i32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1025x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1026x1024, .f32⟩
  | .hbm, ⟨12, _⟩ => ⟨S32x1026x1, .f32⟩
  | .hbm, ⟨13, _⟩ => ⟨S32x1026x1, .f32⟩
  | .hbm, ⟨14, _⟩ => ⟨S32x1026x1, .f32⟩
  | .hbm, ⟨15, _⟩ => ⟨S32x1026x1025, .f32⟩
  | .hbm, ⟨16, _⟩ => ⟨S32x1026x1, .f32⟩
  | .hbm, ⟨17, _⟩ => ⟨S32x1026x1, .f32⟩
  | .hbm, ⟨18, _⟩ => ⟨S32x1026x1, .f32⟩
  | .hbm, ⟨19, _⟩ => ⟨S32x1026x1026, .f32⟩
  | .hbm, ⟨20, _⟩ => ⟨S32x1024x1026, .f32⟩
  | .hbm, ⟨21, _⟩ => ⟨S32x1024x1026, .f32⟩
  | .hbm, ⟨22, _⟩ => ⟨S_, .f32⟩
  | .hbm, ⟨23, _⟩ => ⟨S32x1024x1026, .f32⟩
  | .hbm, ⟨24, _⟩ => ⟨S32x1024x1026, .f32⟩
  | .hbm, ⟨25, _⟩ => ⟨S32x1024x1026, .f32⟩
  | .hbm, ⟨26, _⟩ => ⟨S32x1024x1026, .f32⟩
  | .hbm, ⟨27, _⟩ => ⟨S32x1024x1026, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S32x1x1024x1024, .f32⟩
  | .hbm, ⟨32, _⟩ => ⟨S32x1024x1024, .f32⟩
  | .hbm, ⟨33, _⟩ => ⟨S_, .i32⟩
  | .hbm, ⟨34, _⟩ => ⟨S32x1x1024, .f32⟩
  | .hbm, ⟨35, _⟩ => ⟨S32x1x1024, .f32⟩
  | .hbm, ⟨36, _⟩ => ⟨S32x1x1024, .f32⟩
  | .hbm, ⟨37, _⟩ => ⟨S32x1025x1024, .f32⟩
  | .hbm, ⟨38, _⟩ => ⟨S32x1x1024, .f32⟩
  | .hbm, ⟨39, _⟩ => ⟨S32x1x1024, .f32⟩
  | .hbm, ⟨40, _⟩ => ⟨S32x1x1024, .f32⟩
  | .hbm, ⟨41, _⟩ => ⟨S32x1026x1024, .f32⟩
  | .hbm, ⟨42, _⟩ => ⟨S32x1026x1, .f32⟩
  | .hbm, ⟨43, _⟩ => ⟨S32x1026x1, .f32⟩
  | .hbm, ⟨44, _⟩ => ⟨S32x1026x1, .f32⟩
  | .hbm, ⟨45, _⟩ => ⟨S32x1026x1025, .f32⟩
  | .hbm, ⟨46, _⟩ => ⟨S32x1026x1, .f32⟩
  | .hbm, ⟨47, _⟩ => ⟨S32x1026x1, .f32⟩
  | .hbm, ⟨48, _⟩ => ⟨S32x1026x1, .f32⟩
  | .hbm, ⟨49, _⟩ => ⟨S32x1026x1026, .f32⟩
  | .hbm, ⟨50, _⟩ => ⟨S32x1024x1026, .f32⟩
  | .hbm, ⟨51, _⟩ => ⟨S32x1024x1026, .f32⟩
  | .hbm, ⟨52, _⟩ => ⟨S_, .f32⟩
  | .hbm, ⟨53, _⟩ => ⟨S32x1024x1026, .f32⟩
  | .hbm, ⟨54, _⟩ => ⟨S32x1024x1026, .f32⟩
  | .hbm, ⟨55, _⟩ => ⟨S32x1024x1026, .f32⟩
  | .hbm, ⟨56, _⟩ => ⟨S32x1024x1026, .f32⟩
  | .hbm, ⟨57, _⟩ => ⟨S32x1024x1026, .f32⟩
  | .hbm, ⟨58, _⟩ => ⟨S32x1024x1024, .f32⟩
  | .hbm, ⟨59, _⟩ => ⟨S32x1024x1024, .f32⟩
  | .hbm, ⟨60, _⟩ => ⟨S32x1024x1024, .f32⟩
  | .hbm, ⟨61, _⟩ => ⟨S32x1x1024x1024, .f32⟩
  | .hbm, ⟨62, _⟩ => ⟨S_, .f32⟩
  | .hbm, ⟨63, _⟩ => ⟨S32x1x1024x1024, .f32⟩
  | .hbm, ⟨64, _⟩ => ⟨S32x1x1024x1024, .i1⟩
  | .hbm, ⟨65, _⟩ => ⟨S32x1x1024x1024, .f32⟩
  | .hbm, ⟨66, _⟩ => ⟨S32x1x1024x1024, .f32⟩
  | .hbm, ⟨67, _⟩ => ⟨S32x1x1024x1024, .f32⟩
  | .hbm, ⟨68, _⟩ => ⟨S32x1x1024x1024, .f32⟩
  | .hbm, ⟨69, _⟩ => ⟨S32x1x1024x1024, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_3 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_cst_5 : Ref sig .tc := ⟨.hbm, 75, rfl⟩
abbrev main_v36 : Ref sig .tc := ⟨.hbm, 76, rfl⟩

abbrev nD : Nat := 1
abbrev τ : Topo := Topo.v7x

variable {F : FTy → Type} [FloatOps F]

class Facts₀ : Prop where
  shapeCasts_S32x1x1024x1024_S32x1024x1024 : S32x1x1024x1024.ShapeCasts S32x1024x1024
  slices_S32x1024x1024_S32x1x1024_0_0_0 : S32x1024x1024.Slices ![0, 0, 0] S32x1x1024
  concatenates_S32x1x1024_S32x1024x1024_S32x1025x1024_d1 : Shape.Concatenates [S32x1x1024, S32x1024x1024] S32x1025x1024 1
  slices_S32x1025x1024_S32x1x1024_0_1024_0 : S32x1025x1024.Slices ![0, 1024, 0] S32x1x1024
  concatenates_S32x1025x1024_S32x1x1024_S32x1026x1024_d1 : Shape.Concatenates [S32x1025x1024, S32x1x1024] S32x1026x1024 1
  slices_S32x1026x1024_S32x1026x1_0_0_0 : S32x1026x1024.Slices ![0, 0, 0] S32x1026x1
  concatenates_S32x1026x1_S32x1026x1024_S32x1026x1025_d2 : Shape.Concatenates [S32x1026x1, S32x1026x1024] S32x1026x1025 2
  slices_S32x1026x1025_S32x1026x1_0_0_1024 : S32x1026x1025.Slices ![0, 0, 1024] S32x1026x1
  concatenates_S32x1026x1025_S32x1026x1_S32x1026x1026_d2 : Shape.Concatenates [S32x1026x1025, S32x1026x1] S32x1026x1026 2
  slices_S32x1026x1026_S32x1024x1026_0_0_0 : S32x1026x1026.Slices ![0, 0, 0] S32x1024x1026
  slices_S32x1026x1026_S32x1024x1026_0_1_0 : S32x1026x1026.Slices ![0, 1, 0] S32x1024x1026
  bcast_S_S32x1024x1026 : S_.BroadcastsInDim S32x1024x1026 (![] : Fin 0 → Fin S32x1024x1026.rank)
  slices_S32x1026x1026_S32x1024x1026_0_2_0 : S32x1026x1026.Slices ![0, 2, 0] S32x1024x1026
  slices_S32x1024x1026_S32x1024x1024_0_0_2 : S32x1024x1026.Slices ![0, 0, 2] S32x1024x1024
  slices_S32x1024x1026_S32x1024x1024_0_0_0 : S32x1024x1026.Slices ![0, 0, 0] S32x1024x1024
  bcast_S32x1024x1024_S32x1x1024x1024_0_2_3 : S32x1024x1024.BroadcastsInDim S32x1x1024x1024 (![0, 2, 3] : Fin 3 → Fin S32x1x1024x1024.rank)
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts₀]

class Facts : Prop extends Facts₀ where

variable [Facts]
-- ==== Proof.KernelCase.lean ====
/-
  What one grid point leaves in the two accumulators.

  At the first grid point the kernel stores a zero in each accumulator, reads it back and adds the image's
  contribution; at every later point it reads what the point before left and adds. So after either kind of
  point an accumulator holds (what it held, or zero at the first point) plus that point's contribution: the
  distance accumulator the sum of |e₁·keep − e₂·keep| over the image, the count accumulator the sum of keep.
-/
import proofs.«166740_j43104291783230_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The distance accumulator after a point: what it held plus the point's distance. -/
abbrev numStep (x0 x1 : Vec F S1x1x1024x1024 .f32) (prev : Vec F S1x1 .f32) : Vec F S1x1 .f32 :=
  k0_pay1 (k0_pay7 x0 x1) (k0_pay8 x1) prev

/-- The count accumulator after a point: what it held plus the point's count. -/
abbrev cntStep (x1 : Vec F S1x1x1024x1024 .f32) (prev : Vec F S1x1 .f32) : Vec F S1x1 .f32 :=
  k0_pay2 (k0_pay6 x1) prev

/-- A later point: the distance accumulator holding `xo2` ends at `xo2` plus the point's distance. -/
theorem out_B_2 (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S1x1x1024x1024 .f32) (xo2 xo3 : Vec F S1x1 .f32) :
    out0_B_2 c i a1 h1 a2 h2 a3 h3 a4 h4 hc x0 x1 xo2 xo3 = numStep x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread,
    View.ld_unit_zero (S := S1x1x1024x1024) hz4, View.ld_unit_zero (S := S1x1) hz2]

/-- A later point: the count accumulator holding `xo3` ends at `xo3` plus the point's count. -/
theorem out_B_3 (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S1x1x1024x1024 .f32) (xo2 xo3 : Vec F S1x1 .f32) :
    out0_B_3 c i a1 h1 a2 h2 a3 h3 a4 h4 hc x0 x1 xo2 xo3 = cntStep x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz2]
  simp only [View.readAt_eq_ld, h2.read_unread, h4.read_unread,
    View.ld_unit_zero (S := S1x1x1024x1024) hz4, View.ld_unit_zero (S := S1x1) hz2]

/-- The first point: the distance accumulator ends at the stored zero plus the point's distance. -/
theorem out_A_2 (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S1x1x1024x1024 .f32) :
    out0_A_2 c i a1 h1 a2 h2 a3 h3 a4 h4 hc x0 x1 = numStep x0 x1 (k0_pay3 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread,
    View.ld_unit_zero (S := S1x1x1024x1024) hz4, View.ld_unit_zero (S := S1x1) hz2]

/-- The first point: the count accumulator ends at the stored zero plus the point's count. -/
theorem out_A_3 (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S1x1x1024x1024 .f32) :
    out0_A_3 c i a1 h1 a2 h2 a3 h3 a4 h4 hc x0 x1 = cntStep x1 (k0_pay4 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz2, View.readCov_unit_zero (S := S1x1) _ hz2]
  simp only [View.readAt_eq_ld, h2.read_unread,
    View.ld_unit_zero (S := S1x1x1024x1024) hz4, View.ld_unit_zero (S := S1x1) hz2]

end Cert.KernelIdeal.Acc

end
-- ==== Proof.KernelAcc.lean ====
/-
  The accumulators over the whole grid, and the kernel's result.

  After grid point n each accumulator holds the first point's value (a stored zero plus image 0's contribution)
  extended by one image's contribution per later point (`chain`, by induction on the point). The accumulators'
  blocks never move, so each is written back once, after the last point, and its block is its whole one-entry
  array: the two result arrays end at the chain's last value. The host then reshapes both to scalars and
  divides the distance by the count and by the number of images.
-/
import proofs.«166740_j43104291783230_1_alg».proof.Proof.KernelCase
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The block of the first and of the second input at a grid point: one image each. -/
abbrev fblk (c : Dev nD) (t : Fin cfg0.N) : Vec F S1x1x1024x1024 .f32 := iblk m c 0 t
abbrev rblk (c : Dev nD) (t : Fin cfg0.N) : Vec F S1x1x1024x1024 .f32 := iblk m c 1 t

/-- The two accumulators after point `n`: the first point starts from the stored zeros, a later point from what
    the point before left. -/
def chain (c : Dev nD) : (n : ℕ) → n < cfg0.N → Vec F S1x1 .f32 × Vec F S1x1 .f32
  | 0, h => (numStep (fblk m c ⟨0, h⟩) (rblk m c ⟨0, h⟩) (k0_pay3 (F := F)), cntStep (rblk m c ⟨0, h⟩) (k0_pay4 (F := F)))
  | n + 1, h => (numStep (fblk m c ⟨n + 1, h⟩) (rblk m c ⟨n + 1, h⟩) (chain c n (Nat.lt_of_succ_lt h)).1,
      cntStep (rblk m c ⟨n + 1, h⟩) (chain c n (Nat.lt_of_succ_lt h)).2)

/-- What the accumulators' staging buffers hold after point `n` is the chain: by induction on the point. -/
theorem outsAt_eq (c : Dev nD) : ∀ (n : ℕ) (h : n < cfg0.N), outsAt0 m c n h = chain m c n h
  | 0, h => by
    rw [outsAt0_A m c ⟨0, h⟩ rfl, out_A_2, out_A_3]
    rfl
  | n + 1, h => by
    have hN : cfg0.N = 32 := N_0
    have hB : ¬(⟨n + 1, h⟩ : Fin cfg0.N).val % 32 = 0 := by dsimp only; omega
    rw [outsAt0_B m c ⟨n + 1, h⟩ hB, out_B_2, out_B_3]
    show (numStep _ _ (outsAt0 m c n _).1, cntStep _ (outsAt0 m c n _).2) = _
    rw [outsAt_eq c n]
    rfl

/-- The last grid point. -/
abbrev tLast : Fin cfg0.N := ⟨31, by rw [show cfg0.N = 32 from N_0]; decide⟩

/-- The accumulators after the last point, as contents of the two result arrays (each block is its whole array). -/
abbrev numRes (c : Dev nD) : Buf (Elt F) ((c : Thread nD τ).loc main_v0_0) := (chain m c 31 tLast.isLt).1
abbrev cntRes (c : Dev nD) : Buf (Elt F) ((c : Thread nD τ).loc main_v0_1) := (chain m c 31 tLast.isLt).2

/-- The distance accumulator's one write-back, after the last point, writes the chain's last value: block (0, 0)
    of a one-entry array read through zero offsets is the array. -/
theorem flushed2_eq (c : Dev nD) (t : Fin cfg0.N) (hf : (cfg0.win 2).flush t = true) :
    (dats m 0 c).flushed 2 t = ((cfg0.win 2).blk t).view.read (Elt F) (numRes m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_eq]
  have hz' : (fun a => win0_2.index tLast a * main_v0_0.ty.shape.size a) = fun _ => 0 := funext fun a => by fin_cases a <;> decide
  exact (Memref.read_access_unit_zero (Elt F) main_v0_0 hz' (fun a => by rw [congrFun hz' a]; simp) (numRes m c)).symm

/-- So the distance array ends at the chain's last value: the last point's block covers its one entry. -/
theorem final2 (c : Dev nD) : (dats m 0 c).arrAt 2 cfg0.N = numRes m c :=
  (dats m 0 c).arrAt_eq_of_cover 2 (numRes m c) (flushed2_eq m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The count accumulator's one write-back likewise. -/
theorem flushed3_eq (c : Dev nD) (t : Fin cfg0.N) (hf : (cfg0.win 3).flush t = true) :
    (dats m 0 c).flushed 3 t = ((cfg0.win 3).blk t).view.read (Elt F) (cntRes m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, outsAt_eq]
  have hz' : (fun a => win0_3.index tLast a * main_v0_1.ty.shape.size a) = fun _ => 0 := funext fun a => by fin_cases a <;> decide
  exact (Memref.read_access_unit_zero (Elt F) main_v0_1 hz' (fun a => by rw [congrFun hz' a]; simp) (cntRes m c)).symm

/-- So the count array ends at the chain's last value. -/
theorem final3 (c : Dev nD) : (dats m 0 c).arrAt 3 cfg0.N = cntRes m c :=
  (dats m 0 c).arrAt_eq_of_cover 3 (cntRes m c) (flushed3_eq m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The quotient by the count of kept entries, then by the number of images. -/
def quotK (n k : FVec F S_ .f32) : FVec F S_ .f32 :=
  Host.divf (Host.divf n k) (constant S_ .f32 0x42000000#32)

/-- The kernel's result: both accumulators as scalars, the distance over the count over the number of images. -/
abbrev result (c : Dev nD) : Buf (Elt F) ((c : Thread nD τ).loc main_v4) :=
  quotK (shapeCast S_ (numRes m c) shapeCasts_S1x1_S_) (shapeCast S_ (cntRes m c) shapeCasts_S1x1_S_)

/-- The host lines after the region, run from the region's exit, leave the result. -/
theorem tail_eq (c : Dev nD) : Pipeline.afterTail₀ cfgs (dats m) 0 (V0 m) [hostOps1] c main_v4 = result m c := by
  unfold Pipeline.afterTail₀
  show StableHlo.after hostOps1 _ (Proc.devRef .tc main_v4) = _
  after_results
  have e2 : Pipeline.withArrays (cfgs 0).spec c (V0 m c) (fun w => (dats m 0 c).arrAt w (cfgs 0).N) (Proc.tc.devRef main_v0_0)
      = numRes m c := (Pipeline.withArrays_arr spec0 launch0.win.arr_inj c _ _ 2).trans (final2 m c)
  have e3 : Pipeline.withArrays (cfgs 0).spec c (V0 m c) (fun w => (dats m 0 c).arrAt w (cfgs 0).N) (Proc.tc.devRef main_v0_1)
      = cntRes m c := (Pipeline.withArrays_arr spec0 launch0.win.arr_inj c _ _ 3).trans (final3 m c)
  rw [e2, e3]
  rfl

/-- The kernel's run, read: the result at the quotient of the two accumulated sums, the arguments unchanged. -/
theorem run : θ_run defs (onTc (τ := τ) (main (F := F))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.Sobel.lean ====
/-
  The mathematics both programs compute, stated once over plain functions.

  An image is a function of a row and a column, 1024 of each. Outside the image the nearest edge entry is
  repeated: the row above row 0 is row 0, the row below row 1023 is row 1023, and likewise for columns
  (`up`, `dn`). Along the rows the image is smoothed with weights 1, 2, 1 (`smooth`), and along the columns
  the smoothed image is differenced two columns apart (`edge`). An entry of the second image's edge map is
  kept when it is positive (`keep`: one or zero), and the loss is the sum over every image and entry of
  |edge₁ · keep − edge₂ · keep|, divided by the number of kept entries and then by the number of images.

  The only law used between the two programs is that a finite sum of extended reals does not depend on how it
  is grouped or ordered: one program sums each image's rows, then the row sums, and adds the images one after
  the other onto a zero; the other sums every entry at once onto a zero.
-/
import Idealize.ShloMosaic.PureOps.Ideal.Laws
import Idealize.ShloMosaic.Lib.ValueIdx
import Idealize.ShloMosaic.Lib.IdealHost

noncomputable section

namespace Cert.Sobel

open Idealize.ShloMosaic Idealize.ShloMosaic.ValueIdx
open scoped BigOperators

/-- An image: entry (row, column). -/
abbrev Img := Fin 1024 → Fin 1024 → EReal

/-- The row (or column) before, the first one repeated. -/
def up (h : Fin 1024) : Fin 1024 := ⟨h.val - 1, by have := h.isLt; omega⟩
/-- The row (or column) after, the last one repeated. -/
def dn (h : Fin 1024) : Fin 1024 := ⟨min (h.val + 1) 1023, by omega⟩

theorem up_val (h : Fin 1024) : (up h).val = h.val - 1 := rfl
theorem dn_val (h : Fin 1024) : (dn h).val = min (h.val + 1) 1023 := rfl

/-- The weight 2 and the zero, as the float words both programs spell. -/
abbrev two : EReal := Ideal.ofBits .f32 0x40000000#32
abbrev zero : EReal := Ideal.ofBits .f32 0x00000000#32
abbrev count : EReal := Ideal.ofBits .f32 0x42000000#32

/-- Smoothing along the rows with weights 1, 2, 1, edge rows repeated. -/
def smooth (img : Img) (h c : Fin 1024) : EReal := (img (up h) c + two * img h c) + img (dn h) c

/-- The difference along the columns of the smoothed image, edge columns repeated. -/
def edge (img : Img) (h w : Fin 1024) : EReal := smooth img h (dn w) - smooth img h (up w)

/-- One where the entry is positive, zero elsewhere. -/
def keep (e : EReal) : EReal := (((Ideal.cmp .ogt e zero).toNat : ℝ) : EReal)

/-- One entry's contribution: the distance between the two kept edge values. -/
def term (ef er : EReal) : EReal := max (ef * keep er - er * keep er) (-(ef * keep er - er * keep er))

/-- One image pair's distance, and one image's count of kept entries: rows outside, columns inside. -/
def numAt (f r : Img) : EReal := ∑ h : Fin 1024, ∑ w : Fin 1024, term (edge f h w) (edge r h w)
def cntAt (r : Img) : EReal := ∑ h : Fin 1024, ∑ w : Fin 1024, keep (edge r h w)

/-- Image `b` of a stack of 32 one-channel images. -/
def imgOf (x : (⟨4, ![32, 1, 1024, 1024]⟩ : Shape).Idx → EReal) (b : Fin 32) : Img := fun h w => x (ix4 b 0 h w)

/-- The one image of a block of one. -/
def blkImg (x : (⟨4, ![1, 1, 1024, 1024]⟩ : Shape).Idx → EReal) : Img := fun h w => x (ix4 0 0 h w)

/-- The distance and the count over the whole stack, onto the zero both programs start from. -/
def num (xf xr : (⟨4, ![32, 1, 1024, 1024]⟩ : Shape).Idx → EReal) : EReal :=
  zero + ∑ b : Fin 32, numAt (imgOf xf b) (imgOf xr b)
def cnt (xr : (⟨4, ![32, 1, 1024, 1024]⟩ : Shape).Idx → EReal) : EReal :=
  zero + ∑ b : Fin 32, cntAt (imgOf xr b)

/-- A one-bit word widened to 32 bits and read signed is the bit read unsigned. -/
theorem toInt_setWidth_one (b : BitVec 1) : (b.setWidth 32).toInt = (b.toNat : ℤ) := by
  revert b; decide

/-- A running sum started at `z + s 0` and extended by one term per step is `z` plus the sum so far. -/
theorem chain_step (z : EReal) (n : ℕ) (s : Fin (n + 2) → EReal) :
    (z + ∑ b : Fin (n + 1), s b.castSucc) + s (Fin.last (n + 1)) = z + ∑ b : Fin (n + 2), s b := by
  rw [add_assoc, ← Fin.sum_univ_castSucc]

/-- The stack's indices are the triples (image, row, column): the channel axis has one coordinate. -/
def idxEquiv4 : (⟨4, ![32, 1, 1024, 1024]⟩ : Shape).Idx ≃ Fin 32 × Fin 1024 × Fin 1024 where
  toFun i := (i 0, i 2, i 3)
  invFun p := ix4 p.1 0 p.2.1 p.2.2
  left_inv i := by
    funext a
    match a with
    | ⟨0, _⟩ => rfl
    | ⟨1, _⟩ => exact Fin.ext (by have h1 : (i 1).val < 1 := (i 1).isLt; show 0 = (i 1).val; omega)
    | ⟨2, _⟩ => rfl
    | ⟨3, _⟩ => rfl
  right_inv p := rfl

/-- A sum over every entry of the stack is the sum over images of the sum over rows of the sum over columns. -/
theorem sum_stack (g : Fin 32 → Fin 1024 → Fin 1024 → EReal) :
    ∑ i : (⟨4, ![32, 1, 1024, 1024]⟩ : Shape).Idx, g (i 0) (i 2) (i 3)
      = ∑ b : Fin 32, ∑ h : Fin 1024, ∑ w : Fin 1024, g b h w := by
  rw [← Equiv.sum_comp idxEquiv4.symm, Fintype.sum_prod_type]
  refine Finset.sum_congr rfl fun b _ => ?_
  rw [Fintype.sum_prod_type]
  rfl

end Cert.Sobel

end
-- ==== Proof.BlockEdge.lean ====
/-
  One block's edge map as the kernel computes it, read at an entry.

  The kernel takes a block of one image, repeats its first row above it and its last row below it, adds
  rows r, r + 1 (doubled) and r + 2 of the padded block, repeats the first and last column of the result on
  either side, and subtracts column c of that from column c + 2. Row r of a block padded by one repeated row
  at either end is row min (r − 1) 1023 of the block (the subtraction cut off at zero), so rows h, h + 1 and
  h + 2 of the padded block are the row before h (the first repeated), h itself and the row after h (the last
  repeated); the same holds for columns. Read at entry (h, w) the chain is therefore the smoothed image at
  the column after w less the smoothed image at the column before w: the edge map of the block's image.
  The mask is the comparison bit of that entry against zero, widened and read back as a number: one or zero.
-/
import proofs.«166740_j43104291783230_1_alg».proof.Proof.Gen.KernelIdeal.Skeleton
import proofs.«166740_j43104291783230_1_alg».proof.Proof.Sobel
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.Sobel

/-! ## A block with one repeated row, or column, at either end -/

section Pad
variable {α : Type}

/-- Row r of the block with its first row repeated above and its last row repeated below is row
    min (r − 1) 1023 of the block. -/
theorem padRows_apply (v : (⟨2, ![1024, 1024]⟩ : Shape).Idx → α) (top bot : (⟨2, ![1, 1024]⟩ : Shape).Idx → α)
    (htop : ∀ (u : Fin 1) (c : Fin 1024), top (ix2 u c) = v (ix2 ⟨0, by omega⟩ c))
    (hbot : ∀ (u : Fin 1) (c : Fin 1024), bot (ix2 u c) = v (ix2 ⟨1023, by omega⟩ c))
    (hc : Shape.Concatenates (([⟨S1x1024, top⟩, ⟨S1024x1024, v⟩, ⟨S1x1024, bot⟩] :
      List ((s : Shape) × (s.Idx → α))).map (·.1)) S1026x1024 0)
    (r : Fin 1026) (c : Fin 1024) :
    concatenate S1026x1024 0 [⟨S1x1024, top⟩, ⟨S1024x1024, v⟩, ⟨S1x1024, bot⟩] hc (ix2 r c)
      = v (ix2 ⟨min (r.val - 1) 1023, by omega⟩ c) := by
  have hr : r.val < 1026 := r.isLt
  by_cases h0 : r.val = 0
  · -- the repeated first row
    refine (concatenate_apply_piece (0 : Fin S1026x1024.rank) _ hc (ix2 r c) 0 (by show 0 < 3; omega) S1x1024 top rfl rfl 0 rfl
      (ix2 ⟨0, by omega⟩ c)
      (fun b hb => match b, hb with
        | ⟨0, _⟩, hb => absurd rfl hb
        | ⟨1, _⟩, _ => rfl)
      (by show 0 + 0 = r.val; omega)).trans ?_
    refine (htop _ c).trans ?_
    exact congrArg (fun k => v (ix2 k c)) (Fin.ext (by show 0 = min (r.val - 1) 1023; omega))
  · by_cases h1 : r.val = 1025
    · -- the repeated last row
      refine (concatenate_apply_piece (0 : Fin S1026x1024.rank) _ hc (ix2 r c) 2 (by show 2 < 3; omega) S1x1024 bot rfl rfl 1025 rfl
        (ix2 ⟨0, by omega⟩ c)
        (fun b hb => match b, hb with
          | ⟨0, _⟩, hb => absurd rfl hb
          | ⟨1, _⟩, _ => rfl)
        (by show 1025 + 0 = r.val; omega)).trans ?_
      refine (hbot _ c).trans ?_
      exact congrArg (fun k => v (ix2 k c)) (Fin.ext (by show 1023 = min (r.val - 1) 1023; omega))
    · -- a row of the block itself
      refine (concatenate_apply_piece (0 : Fin S1026x1024.rank) _ hc (ix2 r c) 1 (by show 1 < 3; omega) S1024x1024 v rfl rfl 1 rfl
        (ix2 ⟨r.val - 1, by omega⟩ c)
        (fun b hb => match b, hb with
          | ⟨0, _⟩, hb => absurd rfl hb
          | ⟨1, _⟩, _ => rfl)
        (by show 1 + (r.val - 1) = r.val; omega)).trans ?_
      exact congrArg (fun k => v (ix2 k c)) (Fin.ext (by show r.val - 1 = min (r.val - 1) 1023; omega))

/-- Column c of the block with its first column repeated before and its last column repeated after is column
    min (c − 1) 1023 of the block. -/
theorem padCols_apply (s : (⟨2, ![1024, 1024]⟩ : Shape).Idx → α) (lft rgt : (⟨2, ![1024, 1]⟩ : Shape).Idx → α)
    (hl : ∀ (r : Fin 1024) (u : Fin 1), lft (ix2 r u) = s (ix2 r ⟨0, by omega⟩))
    (hrt : ∀ (r : Fin 1024) (u : Fin 1), rgt (ix2 r u) = s (ix2 r ⟨1023, by omega⟩))
    (hc : Shape.Concatenates (([⟨S1024x1, lft⟩, ⟨S1024x1024, s⟩, ⟨S1024x1, rgt⟩] :
      List ((s : Shape) × (s.Idx → α))).map (·.1)) S1024x1026 1)
    (r : Fin 1024) (c : Fin 1026) :
    concatenate S1024x1026 1 [⟨S1024x1, lft⟩, ⟨S1024x1024, s⟩, ⟨S1024x1, rgt⟩] hc (ix2 r c)
      = s (ix2 r ⟨min (c.val - 1) 1023, by omega⟩) := by
  have hcl : c.val < 1026 := c.isLt
  by_cases h0 : c.val = 0
  · refine (concatenate_apply_piece (1 : Fin S1024x1026.rank) _ hc (ix2 r c) 0 (by show 0 < 3; omega) S1024x1 lft rfl rfl 0 rfl
      (ix2 r ⟨0, by omega⟩)
      (fun b hb => match b, hb with
        | ⟨0, _⟩, _ => rfl
        | ⟨1, _⟩, hb => absurd rfl hb)
      (by show 0 + 0 = c.val; omega)).trans ?_
    refine (hl r _).trans ?_
    exact congrArg (fun k => s (ix2 r k)) (Fin.ext (by show 0 = min (c.val - 1) 1023; omega))
  · by_cases h1 : c.val = 1025
    · refine (concatenate_apply_piece (1 : Fin S1024x1026.rank) _ hc (ix2 r c) 2 (by show 2 < 3; omega) S1024x1 rgt rfl rfl 1025 rfl
        (ix2 r ⟨0, by omega⟩)
        (fun b hb => match b, hb with
          | ⟨0, _⟩, _ => rfl
          | ⟨1, _⟩, hb => absurd rfl hb)
        (by show 1025 + 0 = c.val; omega)).trans ?_
      refine (hrt r _).trans ?_
      exact congrArg (fun k => s (ix2 r k)) (Fin.ext (by show 1023 = min (c.val - 1) 1023; omega))
    · refine (concatenate_apply_piece (1 : Fin S1024x1026.rank) _ hc (ix2 r c) 1 (by show 1 < 3; omega) S1024x1024 s rfl rfl 1 rfl
        (ix2 r ⟨c.val - 1, by omega⟩)
        (fun b hb => match b, hb with
          | ⟨0, _⟩, _ => rfl
          | ⟨1, _⟩, hb => absurd rfl hb)
        (by show 1 + (c.val - 1) = c.val; omega)).trans ?_
      exact congrArg (fun k => s (ix2 r k)) (Fin.ext (by show c.val - 1 = min (c.val - 1) 1023; omega))

end Pad

/-! ## The chain of operations, named once -/

section Chain
variable {F : FTy → Type} [FloatOps F]

/-- The block with its first and last rows repeated around it. -/
def padR (v : FVec F S1024x1024 .f32) : FVec F S1026x1024 .f32 :=
  concatenate S1026x1024 0
    [⟨S1x1024, extractStridedSlice S1x1024 ![0, 0] v slices_S1024x1024_o0_0_S1x1024⟩, ⟨S1024x1024, v⟩,
      ⟨S1x1024, extractStridedSlice S1x1024 ![1023, 0] v slices_S1024x1024_o1023_0_S1x1024⟩]
    concatenates_S1x1024_S1024x1024_S1x1024_S1026x1024_d0

/-- Rows r, r + 1 doubled, r + 2 of the padded block, added. -/
def smoothK (v : FVec F S1024x1024 .f32) : FVec F S1024x1024 .f32 :=
  addf
    (addf (extractStridedSlice S1024x1024 ![0, 0] (padR v) slices_S1026x1024_o0_0_S1024x1024)
      (mulf (broadcast S1024x1024 (Scalar.ofBits .f32 0x40000000#32))
        (extractStridedSlice S1024x1024 ![1, 0] (padR v) slices_S1026x1024_o1_0_S1024x1024)))
    (extractStridedSlice S1024x1024 ![2, 0] (padR v) slices_S1026x1024_o2_0_S1024x1024)

/-- A block with its first and last columns repeated around it. -/
def padC (s : FVec F S1024x1024 .f32) : FVec F S1024x1026 .f32 :=
  concatenate S1024x1026 1
    [⟨S1024x1, extractStridedSlice S1024x1 ![0, 0] s slices_S1024x1024_o0_0_S1024x1⟩, ⟨S1024x1024, s⟩,
      ⟨S1024x1, extractStridedSlice S1024x1 ![0, 1023] s slices_S1024x1024_o0_1023_S1024x1⟩]
    concatenates_S1024x1_S1024x1024_S1024x1_S1024x1026_d1

/-- Column c + 2 less column c of the smoothed block padded along its columns. -/
def edgeChain (v : FVec F S1024x1024 .f32) : FVec F S1024x1024 .f32 :=
  subf (extractStridedSlice S1024x1024 ![0, 2] (padC (smoothK v)) slices_S1024x1026_o0_2_S1024x1024)
    (extractStridedSlice S1024x1024 ![0, 0] (padC (smoothK v)) slices_S1024x1026_o0_0_S1024x1024)

/-- The kernel's edge map of a block is the chain on the block read as a matrix. -/
theorem pay5_eq (x : Vec F S1x1x1024x1024 .f32) :
    k0_pay5 x = edgeChain (shapeCast S1024x1024 x shapeCasts_S1x1x1024x1024_S1024x1024) := rfl

/-- The kernel's masked edge map of the other block is the chain on it, times the mask. -/
theorem pay7_eq (x0 x1 : Vec F S1x1x1024x1024 .f32) :
    k0_pay7 x0 x1 = mulf (edgeChain (shapeCast S1024x1024 x0 shapeCasts_S1x1x1024x1024_S1024x1024)) (k0_pay6 x1) := rfl

end Chain

/-! ## The chain read at an entry -/

section Read
variable {F : FTy → Type} [FloatOps F]

/-- Row r of the row-padded block is row min (r − 1) 1023 of the block. -/
theorem padR_apply (v : FVec F S1024x1024 .f32) (r : Fin 1026) (c : Fin 1024) :
    padR v (ix2 r c) = v (ix2 ⟨min (r.val - 1) 1023, by omega⟩ c) :=
  padRows_apply v _ _
    (fun u c => slice2_axis0_apply 0 v _ u c ⟨0, by omega⟩ (by have := u.isLt; show 0 = 0 + u.val; omega))
    (fun u c => slice2_axis0_apply 1023 v _ u c ⟨1023, by omega⟩ (by have := u.isLt; show 1023 = 1023 + u.val; omega))
    _ r c

/-- Column c of the column-padded block is column min (c − 1) 1023 of the block. -/
theorem padC_apply (s : FVec F S1024x1024 .f32) (r : Fin 1024) (c : Fin 1026) :
    padC s (ix2 r c) = s (ix2 r ⟨min (c.val - 1) 1023, by omega⟩) :=
  padCols_apply s _ _
    (fun r u => slice2_axis1_apply 0 s _ r u ⟨0, by omega⟩ (by have := u.isLt; show 0 = 0 + u.val; omega))
    (fun r u => slice2_axis1_apply 1023 s _ r u ⟨1023, by omega⟩ (by have := u.isLt; show 1023 = 1023 + u.val; omega))
    _ r c

/-- A block of one image read as a matrix: entry (a, b) is the block's entry (0, 0, a, b). -/
theorem cast_apply (x : Vec F S1x1x1024x1024 .f32) (a b : Fin 1024) :
    shapeCast S1024x1024 x shapeCasts_S1x1x1024x1024_S1024x1024 (ix2 a b) = x (ix4 0 0 a b) :=
  shapeCast_apply x _ (ix2 a b) (ix4 0 0 a b) (by
    rw [Shape.rowMajor_val_four, Shape.rowMajor_val_two]
    show ((0 * 1 + 0) * 1024 + a.val) * 1024 + b.val = a.val * 1024 + b.val
    omega)

end Read

/-- Rows h, h + 1 doubled and h + 2 of the padded block are the image smoothed along its rows at row h. -/
theorem smoothK_apply (v : FVec Ideal S1024x1024 .f32) (h c : Fin 1024) :
    smoothK v (ix2 h c) = smooth (fun a b => v (ix2 a b)) h c := by
  have hh : h.val < 1024 := h.isLt
  have e0 : extractStridedSlice S1024x1024 ![0, 0] (padR v) slices_S1026x1024_o0_0_S1024x1024 (ix2 h c)
      = v (ix2 (up h) c) :=
    (slice2_axis0_apply 0 (padR v) _ h c ⟨h.val, by omega⟩ (by show h.val = 0 + h.val; omega)).trans
      ((padR_apply v _ c).trans
        (congrArg (fun k => v (ix2 k c)) (Fin.ext (by show min (h.val - 1) 1023 = h.val - 1; omega))))
  have e1 : extractStridedSlice S1024x1024 ![1, 0] (padR v) slices_S1026x1024_o1_0_S1024x1024 (ix2 h c)
      = v (ix2 h c) :=
    (slice2_axis0_apply 1 (padR v) _ h c ⟨1 + h.val, by omega⟩ rfl).trans
      ((padR_apply v _ c).trans
        (congrArg (fun k => v (ix2 k c)) (Fin.ext (by show min (1 + h.val - 1) 1023 = h.val; omega))))
  have e2 : extractStridedSlice S1024x1024 ![2, 0] (padR v) slices_S1026x1024_o2_0_S1024x1024 (ix2 h c)
      = v (ix2 (dn h) c) :=
    (slice2_axis0_apply 2 (padR v) _ h c ⟨2 + h.val, by omega⟩ rfl).trans
      ((padR_apply v _ c).trans
        (congrArg (fun k => v (ix2 k c)) (Fin.ext (by show min (2 + h.val - 1) 1023 = min (h.val + 1) 1023; omega))))
  exact congrArg₂ (· + ·) (congrArg₂ (· + ·) e0 (congrArg (two * ·) e1)) e2

/-- Column w + 2 less column w of the padded smoothed block is the image's edge map at (h, w). -/
theorem edgeChain_apply (v : FVec Ideal S1024x1024 .f32) (h w : Fin 1024) :
    edgeChain v (ix2 h w) = edge (fun a b => v (ix2 a b)) h w := by
  have hw : w.val < 1024 := w.isLt
  have e2 : extractStridedSlice S1024x1024 ![0, 2] (padC (smoothK v)) slices_S1024x1026_o0_2_S1024x1024 (ix2 h w)
      = smooth (fun a b => v (ix2 a b)) h (dn w) :=
    (slice2_axis1_apply 2 (padC (smoothK v)) _ h w ⟨2 + w.val, by omega⟩ rfl).trans
      ((padC_apply (smoothK v) h _).trans
        ((congrArg (fun k => smoothK v (ix2 h k))
          (Fin.ext (by show min (2 + w.val - 1) 1023 = min (w.val + 1) 1023; omega))).trans (smoothK_apply v h (dn w))))
  have e0 : extractStridedSlice S1024x1024 ![0, 0] (padC (smoothK v)) slices_S1024x1026_o0_0_S1024x1024 (ix2 h w)
      = smooth (fun a b => v (ix2 a b)) h (up w) :=
    (slice2_axis1_apply 0 (padC (smoothK v)) _ h w ⟨w.val, by omega⟩ (by show w.val = 0 + w.val; omega)).trans
      ((padC_apply (smoothK v) h _).trans
        ((congrArg (fun k => smoothK v (ix2 h k))
          (Fin.ext (by show min (w.val - 1) 1023 = w.val - 1; omega))).trans (smoothK_apply v h (up w))))
  exact congrArg₂ (· - ·) e2 e0

/-! ## The kernel's four values of one block, at an entry -/

/-- The kernel's edge map of a block at (h, w) is the edge map of the block's image. -/
theorem pay5_apply (x1 : Vec Ideal S1x1x1024x1024 .f32) (h w : Fin 1024) :
    k0_pay5 x1 (ix2 h w) = edge (blkImg x1) h w := by
  rw [pay5_eq]
  refine (edgeChain_apply _ h w).trans ?_
  exact congrArg (fun img : Img => edge img h w) (funext fun a => funext fun b => cast_apply x1 a b)

/-- The kernel's mask at (h, w): one where the edge map is positive, zero elsewhere. -/
theorem pay6_apply (x1 : Vec Ideal S1x1x1024x1024 .f32) (h w : Fin 1024) :
    k0_pay6 x1 (ix2 h w) = keep (edge (blkImg x1) h w) := by
  show ((((Ideal.cmp .ogt (k0_pay5 x1 (ix2 h w)) zero).setWidth 32).toInt : ℝ) : EReal) = _
  rw [pay5_apply, toInt_setWidth_one, Int.cast_natCast]
  rfl

/-- The other block's edge map at (h, w), masked. -/
theorem pay7_apply (x0 x1 : Vec Ideal S1x1x1024x1024 .f32) (h w : Fin 1024) :
    k0_pay7 x0 x1 (ix2 h w) = edge (blkImg x0) h w * keep (edge (blkImg x1) h w) := by
  rw [pay7_eq]
  show edgeChain (shapeCast S1024x1024 x0 shapeCasts_S1x1x1024x1024_S1024x1024) (ix2 h w) * k0_pay6 x1 (ix2 h w) = _
  rw [pay6_apply, ← pay5_eq, pay5_apply]

/-- The block's own edge map at (h, w), masked. -/
theorem pay8_apply (x1 : Vec Ideal S1x1x1024x1024 .f32) (h w : Fin 1024) :
    k0_pay8 x1 (ix2 h w) = edge (blkImg x1) h w * keep (edge (blkImg x1) h w) := by
  show k0_pay5 x1 (ix2 h w) * k0_pay6 x1 (ix2 h w) = _
  rw [pay5_apply, pay6_apply]

end Cert.KernelIdeal.Block

end
-- ==== Proof.BlockSum.lean ====
import proofs.«166740_j43104291783230_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The two accumulating payloads of the kernel, read as sums

At each grid point the kernel adds, to each of its two running scalars, the total of a
1024 × 1024 matrix: the absolute differences of the two masked edge maps for the first scalar,
the mask itself for the second. The total is taken in two steps (every row summed along its
columns, then the column of row sums summed), with reshapes [1024] → [1024, 1] and
[1] → [1, 1] in between that move no entry. Over the extended reals each step is a finite
sum, so the total is the double sum ∑ h, ∑ w over rows and columns, and the payload is the
old scalar plus that double sum.
-/

noncomputable section

namespace Cert.KernelIdeal.Block

open Cert.KernelIdeal Cert.KernelIdeal.Gen Idealize.ShloMosaic Idealize.ShloMosaic.ValueIdx
open scoped BigOperators

/-- A vector of 1024 entries viewed as a column [1024, 1] has, in row r, entry r of the
vector: the row-major position of (r, c) in a one-column matrix is r * 1 + c with c = 0. -/
theorem cast_col (x : S1024.Idx → EReal) (h : S1024.ShapeCasts S1024x1) (j : S1024x1.Idx) :
    shapeCast S1024x1 x h j = x (ix1 (j 0)) := by
  refine shapeCast_apply x h j (ix1 (j 0)) ?_
  have h1 : (j 1).val < 1 := (j 1).isLt
  rw [Shape.rowMajor_val_one, Shape.rowMajor_val_two]
  show (j 0).val = (j 0).val * 1 + (j 1).val
  omega

/-- A one-entry vector viewed as a [1, 1] matrix keeps its entry. -/
theorem cast_one (x : S1.Idx → EReal) (h : S1.ShapeCasts S1x1) (j : S1x1.Idx) :
    shapeCast S1x1 x h j = x (ix1 0) := by
  refine shapeCast_apply x h j (ix1 0) ?_
  have h0 : (j 0).val < 1 := (j 0).isLt
  have h1 : (j 1).val < 1 := (j 1).isLt
  rw [Shape.rowMajor_val_one, Shape.rowMajor_val_two]
  show (0 : ℕ) = (j 0).val * 1 + (j 1).val
  omega

/-- Summing a matrix along its columns gives, in row r, the sum over w of the entries (r, w). -/
theorem rowSum (v : FVec Ideal S1024x1024 .f32) (j : S1024.Idx) :
    multiReduction (F := Ideal) .add [1] S1024 v 0x00000000#32 reduces_S1024x1024_S1024 (.inl rfl) rfl j
      = ∑ w : Fin 1024, v (ix2 (j 0) w) := by
  refine (Ideal.multiReduction_add_single (φ := .f32) v _ reduces_S1024x1024_S1024 (.inl rfl) rfl j).trans ?_
  refine Finset.sum_congr rfl fun w _ => congrArg v ?_
  funext a
  match a with
  | ⟨0, _⟩ => exact Fin.ext rfl
  | ⟨1, _⟩ => exact Fin.ext rfl

/-- Summing a one-column matrix along its rows gives the sum over r of the entries (r, 0). -/
theorem colSum (c : FVec Ideal S1024x1 .f32) (j : S1.Idx) :
    multiReduction (F := Ideal) .add [0] S1 c 0x00000000#32 reduces_S1024x1_S1 (.inl rfl) rfl j
      = ∑ r : Fin 1024, c (ix2 r (j 0)) := by
  refine (Ideal.multiReduction_add_single (φ := .f32) c _ reduces_S1024x1_S1 (.inl rfl) rfl j).trans ?_
  refine Finset.sum_congr rfl fun r _ => congrArg c ?_
  funext a
  match a with
  | ⟨0, _⟩ => exact Fin.ext rfl
  | ⟨1, _⟩ => exact Fin.ext rfl

/-- The reduction chain shared by the two payloads: rows summed, reshaped to a column, the column
summed, reshaped to [1, 1]. Its one entry is the double sum of the matrix over rows and columns. -/
theorem sum2 (v : FVec Ideal S1024x1024 .f32) (j : S1x1.Idx) :
    shapeCast S1x1 (multiReduction (F := Ideal) .add [0] S1
        (shapeCast S1024x1 (multiReduction (F := Ideal) .add [1] S1024 v 0x00000000#32
          reduces_S1024x1024_S1024 (.inl rfl) rfl) shapeCasts_S1024_S1024x1)
        0x00000000#32 reduces_S1024x1_S1 (.inl rfl) rfl) shapeCasts_S1_S1x1 j
      = ∑ h : Fin 1024, ∑ w : Fin 1024, v (ix2 h w) := by
  refine (cast_one _ shapeCasts_S1_S1x1 j).trans ?_
  refine (colSum _ _).trans ?_
  refine Finset.sum_congr rfl fun r _ => ?_
  refine (cast_col _ shapeCasts_S1024_S1024x1 _).trans ?_
  exact rowSum v _

/-- The first accumulating payload: the old scalar plus the sum, over the whole image, of the
absolute differences |a - b| = max (a - b) (-(a - b)) of the two masked edge maps. -/
theorem pay1_sum (v43 v44 : FVec Ideal S1024x1024 .f32) (v55 : Vec Ideal S1x1 .f32) :
    k0_pay1 v43 v44 v55 = fun _ => v55 (ix2 0 0)
      + ∑ h : Fin 1024, ∑ w : Fin 1024,
          max (v43 (ix2 h w) - v44 (ix2 h w)) (-(v43 (ix2 h w) - v44 (ix2 h w))) := by
  funext j
  have hj : j = ix2 0 0 := by
    funext a
    match a with
    | ⟨0, _⟩ => exact Subsingleton.elim (α := Fin 1) _ _
    | ⟨1, _⟩ => exact Subsingleton.elim (α := Fin 1) _ _
  show addf (F := Ideal) (φ := .f32) (shapeCast S1x1 (v55 : S1x1.Idx → EReal) shapeCasts_S1x1_S1x1) _ j = _
  rw [addf_apply, shapeCast_self, sum2, hj]
  rfl

/-- The second accumulating payload: the old scalar plus the sum of the mask over the whole image. -/
theorem pay2_sum (v42 : FVec Ideal S1024x1024 .f32) (v59 : Vec Ideal S1x1 .f32) :
    k0_pay2 v42 v59 = fun _ => v59 (ix2 0 0) + ∑ h : Fin 1024, ∑ w : Fin 1024, v42 (ix2 h w) := by
  funext j
  have hj : j = ix2 0 0 := by
    funext a
    match a with
    | ⟨0, _⟩ => exact Subsingleton.elim (α := Fin 1) _ _
    | ⟨1, _⟩ => exact Subsingleton.elim (α := Fin 1) _ _
  show addf (F := Ideal) (φ := .f32) (shapeCast S1x1 (v59 : S1x1.Idx → EReal) shapeCasts_S1x1_S1x1) _ j = _
  rw [addf_apply, shapeCast_self, sum2, hj]

end Cert.KernelIdeal.Block

end
-- ==== Proof.KernelValue.lean ====
/-
  The kernel's result is the specification's quotient.

  At the ideal values one grid point adds to the distance accumulator the image pair's distance and to the
  count accumulator the image's count (the block's edge map entry by entry, the two reductions as sums). The
  block a grid point reads is that point's image of the stack. So after the last point the accumulators hold
  the stored zero plus the sum over all 32 images, in the order the points ran: the specification's `num` and
  `cnt`, by extending the sum one image at a time.
-/
import proofs.«166740_j43104291783230_1_alg».proof.Proof.KernelAcc
import proofs.«166740_j43104291783230_1_alg».proof.Proof.BlockEdge
import proofs.«166740_j43104291783230_1_alg».proof.Proof.BlockSum
import proofs.«166740_j43104291783230_1_alg».proof.Proof.Sobel

noncomputable section

open Idealize.ShloMosaic Idealize.ShloMosaic.TcCoe Idealize.SL.Sem Idealize.ShloMosaic.ValueIdx
open Idealize.ShloMosaic.Pipeline (Dat)
open scoped BigOperators

namespace Cert.KernelIdeal.Value

open Cert.KernelIdeal Cert.KernelIdeal.Gen Cert.KernelIdeal.Acc Cert.KernelIdeal.Block Cert.Sobel

variable (m : (ℓ : Loc nD τ sig) → Buf (Elt Ideal) ℓ) (ρ : Dev nD → PrngReg)

/-- One point's step of the distance accumulator: what it held plus the image pair's distance. -/
theorem numStep_eq (x0 x1 : Vec Ideal S1x1x1024x1024 .f32) (prev : Vec Ideal S1x1 .f32) :
    numStep x0 x1 prev = fun _ => prev (ix2 0 0) + numAt (blkImg x0) (blkImg x1) := by
  show k0_pay1 (k0_pay7 x0 x1) (k0_pay8 x1) prev = _
  rw [pay1_sum]
  simp only [pay7_apply, pay8_apply]
  unfold numAt term
  rfl

/-- One point's step of the count accumulator: what it held plus the image's count. -/
theorem cntStep_eq (x1 : Vec Ideal S1x1x1024x1024 .f32) (prev : Vec Ideal S1x1 .f32) :
    cntStep x1 prev = fun _ => prev (ix2 0 0) + cntAt (blkImg x1) := by
  show k0_pay2 (k0_pay6 x1) prev = _
  rw [pay2_sum]
  simp only [pay6_apply]
  unfold cntAt
  rfl

/-- Image `t` of the first and of the second input stack. -/
abbrev img0 (c : Dev nD) (b : Fin 32) : Img := imgOf (m ((c : Thread nD τ).loc main_arg0)) b
abbrev img1 (c : Dev nD) (b : Fin 32) : Img := imgOf (m ((c : Thread nD τ).loc main_arg1)) b

/-- The first input's block at grid point `t` is image `t`: the window's index is (t, 0, 0, 0) and its block one
    whole image, so entry (0, 0, h, w) of the block is entry (t, 0, h, w) of the stack. -/
theorem fblk_img (c : Dev nD) (t : Fin cfg0.N) (b : Fin 32) (hb : b.val = t.val) :
    blkImg (fblk m c t) = img0 m c b := by
  have hi : win0_0.index t 0 = t.val ∧ win0_0.index t 1 = 0 ∧ win0_0.index t 2 = 0 ∧ win0_0.index t 3 = 0 :=
    (by decide +kernel : ∀ t : Fin grid0.N, win0_0.index t 0 = t.val ∧ win0_0.index t 1 = 0 ∧ win0_0.index t 2 = 0 ∧ win0_0.index t 3 = 0) t
  funext h w
  unfold blkImg img0 imgOf fblk iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [hi.1]; omega
  | ⟨1, _⟩ => show win0_0.index t 1 * 1 + 1 * 0 = 0; rw [hi.2.1]
  | ⟨2, _⟩ => show win0_0.index t 2 * 1024 + 1 * h.val = h.val; rw [hi.2.2.1]; omega
  | ⟨3, _⟩ => show win0_0.index t 3 * 1024 + 1 * w.val = w.val; rw [hi.2.2.2]; omega

/-- The second input's block at grid point `t` is image `t`. -/
theorem rblk_img (c : Dev nD) (t : Fin cfg0.N) (b : Fin 32) (hb : b.val = t.val) :
    blkImg (rblk m c t) = img1 m c b := by
  have hi : win0_1.index t 0 = t.val ∧ win0_1.index t 1 = 0 ∧ win0_1.index t 2 = 0 ∧ win0_1.index t 3 = 0 :=
    (by decide +kernel : ∀ t : Fin grid0.N, win0_1.index t 0 = t.val ∧ win0_1.index t 1 = 0 ∧ win0_1.index t 2 = 0 ∧ win0_1.index t 3 = 0) t
  funext h w
  unfold blkImg img1 imgOf rblk iblk
  rw [View.read_apply]
  show V m c main_arg1 _ = m (c.tc.loc main_arg1) _
  rw [V_main_arg1]
  congr 1
  funext a
  apply Fin.ext
  match a with
  | ⟨0, _⟩ => show win0_1.index t 0 * 1 + 1 * 0 = b.val; rw [hi.1]; omega
  | ⟨1, _⟩ => show win0_1.index t 1 * 1 + 1 * 0 = 0; rw [hi.2.1]
  | ⟨2, _⟩ => show win0_1.index t 2 * 1024 + 1 * h.val = h.val; rw [hi.2.2.1]; omega
  | ⟨3, _⟩ => show win0_1.index t 3 * 1024 + 1 * w.val = w.val; rw [hi.2.2.2]; omega

/-- A point's number is an image's number. -/
theorem lt32 {n : ℕ} (h : n < cfg0.N) (b : Fin (n + 1)) : b.val < 32 := by
  have := b.isLt; have hN : cfg0.N = 32 := N_0; omega

/-- The accumulators after point `n`: the stored zero plus the sum over images 0 … n, in the order the points ran. -/
theorem chain_eq (c : Dev nD) : ∀ (n : ℕ) (h : n < cfg0.N), chain m c n h
      = (fun _ => zero + ∑ b : Fin (n + 1), numAt (img0 m c ⟨b.val, lt32 h b⟩) (img1 m c ⟨b.val, lt32 h b⟩),
         fun _ => zero + ∑ b : Fin (n + 1), cntAt (img1 m c ⟨b.val, lt32 h b⟩))
  | 0, h => by
    show (numStep (fblk m c ⟨0, h⟩) (rblk m c ⟨0, h⟩) (k0_pay3 (F := Ideal)), cntStep (rblk m c ⟨0, h⟩) (k0_pay4 (F := Ideal))) = _
    rw [numStep_eq, cntStep_eq, fblk_img m c ⟨0, h⟩ 0 rfl, rblk_img m c ⟨0, h⟩ 0 rfl]
    refine Prod.ext (funext fun _ => ?_) (funext fun _ => ?_)
    · show zero + _ = zero + ∑ b : Fin 1, _
      rw [Fin.sum_univ_one]; rfl
    · show zero + _ = zero + ∑ b : Fin 1, _
      rw [Fin.sum_univ_one]; rfl
  | n + 1, h => by
    have hN : cfg0.N = 32 := N_0
    show (numStep (fblk m c ⟨n + 1, h⟩) (rblk m c ⟨n + 1, h⟩) (chain m c n (Nat.lt_of_succ_lt h)).1,
      cntStep (rblk m c ⟨n + 1, h⟩) (chain m c n (Nat.lt_of_succ_lt h)).2) = _
    rw [numStep_eq, cntStep_eq, chain_eq c n, fblk_img m c ⟨n + 1, h⟩ ⟨n + 1, by omega⟩ rfl, rblk_img m c ⟨n + 1, h⟩ ⟨n + 1, by omega⟩ rfl]
    refine Prod.ext (funext fun _ => ?_) (funext fun _ => ?_)
    · exact chain_step zero n fun b => numAt (img0 m c ⟨b.val, lt32 h b⟩) (img1 m c ⟨b.val, lt32 h b⟩)
    · exact chain_step zero n fun b => cntAt (img1 m c ⟨b.val, lt32 h b⟩)

/-- The kernel's result is the quotient of the specification's distance and count. -/
theorem result_eq (c : Dev nD) : result m c
    = quotK (F := Ideal) (fun _ => num (m ((c : Thread nD τ).loc main_arg0)) (m ((c : Thread nD τ).loc main_arg1)))
        (fun _ => cnt (m ((c : Thread nD τ).loc main_arg1))) := by
  show quotK (F := Ideal) (shapeCast S_ (chain m c 31 tLast.isLt).1 shapeCasts_S1x1_S_) (shapeCast S_ (chain m c 31 tLast.isLt).2 shapeCasts_S1x1_S_) = _
  rw [chain_eq]
  rfl

/-- The kernel's run at the ideal values: the result at the specification's quotient, the arguments unchanged. -/
theorem run : θ_run defs (onTc (τ := τ) (main (F := Ideal))) ⟨m, fun _ => 0, ρ⟩ fun r => ∀ c : Dev nD,
      r.2.mem ((c : Thread nD τ).loc main_v4)
        = quotK (F := Ideal) (fun _ => num (m ((c : Thread nD τ).loc main_arg0)) (m ((c : Thread nD τ).loc main_arg1)))
            (fun _ => cnt (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (Acc.run m ρ)

end Cert.KernelIdeal.Value

end
-- ==== Proof.RefTerm.lean ====
/-
  The reference program's result as one pure term of its two arguments, stage by stage.

  `padOf` is the padding by one entry on each side of both image axes with the nearest edge entry (the
  mirrored entry of a width-one symmetric padding IS the edge entry): the first row, reversed along its
  one-entry axis, is put in front of the rows; the last row of that, reversed, behind them; then the same for
  the columns. `smoothOf` adds rows r, r + 1 (doubled) and r + 2 of the padded array, `diffOf` subtracts
  column c from column c + 2 of the result, `edgeOf` is the three applied to each image of the stack.
  `keepOf` marks the positive entries, `termOf` is the distance of the two kept edge values, `total` the sum
  of every entry onto a zero, `lossOf` the quotient by the count and by the number of images.
-/
import proofs.«166740_j43104291783230_1_alg».proof.ReferenceIdeal
import proofs.«166740_j43104291783230_1_alg».proof.Proof.Gen.ReferenceIdeal

noncomputable section

namespace Cert.ReferenceIdeal.Term

open Cert.ReferenceIdeal Cert.ReferenceIdeal.Gen Idealize.ShloMosaic

variable {F : FTy → Type} [FloatOps F]

/-- The first row of every image, reversed along its one-entry axis. -/
def topRow (x : FVec F S32x1024x1024 .f32) : FVec F S32x1x1024 .f32 :=
  Host.reverse [1] (extractStridedSlice S32x1x1024 ![0, 0, 0] x slices_S32x1024x1024_S32x1x1024_0_0_0)

/-- That row in front of the rows. -/
def withTop (x : FVec F S32x1024x1024 .f32) : FVec F S32x1025x1024 .f32 :=
  concatenate S32x1025x1024 1 [⟨S32x1x1024, topRow x⟩, ⟨S32x1024x1024, x⟩] concatenates_S32x1x1024_S32x1024x1024_S32x1025x1024_d1

/-- The last row, reversed along its one-entry axis. -/
def botRow (y : FVec F S32x1025x1024 .f32) : FVec F S32x1x1024 .f32 :=
  Host.reverse [1] (extractStridedSlice S32x1x1024 ![0, 1024, 0] y slices_S32x1025x1024_S32x1x1024_0_1024_0)

/-- The rows padded by one on both sides. -/
def padRows (x : FVec F S32x1024x1024 .f32) : FVec F S32x1026x1024 .f32 :=
  concatenate S32x1026x1024 1 [⟨S32x1025x1024, withTop x⟩, ⟨S32x1x1024, botRow (withTop x)⟩] concatenates_S32x1025x1024_S32x1x1024_S32x1026x1024_d1

/-- The first column, reversed along its one-entry axis. -/
def leftCol (y : FVec F S32x1026x1024 .f32) : FVec F S32x1026x1 .f32 :=
  Host.reverse [2] (extractStridedSlice S32x1026x1 ![0, 0, 0] y slices_S32x1026x1024_S32x1026x1_0_0_0)

/-- That column in front of the columns. -/
def withLeft (y : FVec F S32x1026x1024 .f32) : FVec F S32x1026x1025 .f32 :=
  concatenate S32x1026x1025 2 [⟨S32x1026x1, leftCol y⟩, ⟨S32x1026x1024, y⟩] concatenates_S32x1026x1_S32x1026x1024_S32x1026x1025_d2

/-- The last column, reversed along its one-entry axis. -/
def rightCol (z : FVec F S32x1026x1025 .f32) : FVec F S32x1026x1 .f32 :=
  Host.reverse [2] (extractStridedSlice S32x1026x1 ![0, 0, 1024] z slices_S32x1026x1025_S32x1026x1_0_0_1024)

/-- The columns padded by one on both sides. -/
def padCols (y : FVec F S32x1026x1024 .f32) : FVec F S32x1026x1026 .f32 :=
  concatenate S32x1026x1026 2 [⟨S32x1026x1025, withLeft y⟩, ⟨S32x1026x1, rightCol (withLeft y)⟩] concatenates_S32x1026x1025_S32x1026x1_S32x1026x1026_d2

/-- Both image axes padded by one with the nearest edge entry. -/
def padOf (x : FVec F S32x1024x1024 .f32) : FVec F S32x1026x1026 .f32 := padCols (padRows x)

/-- Rows r, r + 1 doubled, r + 2 of the padded array, added in that order. -/
def smoothOf (p : FVec F S32x1026x1026 .f32) : FVec F S32x1024x1026 .f32 :=
  addf (addf (extractStridedSlice S32x1024x1026 ![0, 0, 0] p slices_S32x1026x1026_S32x1024x1026_0_0_0)
      (mulf (broadcastInDim S32x1024x1026 ![] bcast_S_S32x1024x1026 (constant S_ .f32 0x40000000#32))
        (extractStridedSlice S32x1024x1026 ![0, 1, 0] p slices_S32x1026x1026_S32x1024x1026_0_1_0)))
    (extractStridedSlice S32x1024x1026 ![0, 2, 0] p slices_S32x1026x1026_S32x1024x1026_0_2_0)

/-- Column c + 2 less column c. -/
def diffOf (s : FVec F S32x1024x1026 .f32) : FVec F S32x1024x1024 .f32 :=
  subf (extractStridedSlice S32x1024x1024 ![0, 0, 2] s slices_S32x1024x1026_S32x1024x1024_0_0_2)
    (extractStridedSlice S32x1024x1024 ![0, 0, 0] s slices_S32x1024x1026_S32x1024x1024_0_0_0)

/-- The edge map of every image of the stack. -/
def edgeOf (x : FVec F S32x1x1024x1024 .f32) : FVec F S32x1x1024x1024 .f32 :=
  broadcastInDim S32x1x1024x1024 ![0, 2, 3] bcast_S32x1024x1024_S32x1x1024x1024_0_2_3
    (diffOf (smoothOf (padOf (shapeCast S32x1024x1024 x shapeCasts_S32x1x1024x1024_S32x1024x1024))))

/-- One where the entry is positive, zero elsewhere. -/
def keepOf (er : FVec F S32x1x1024x1024 .f32) : FVec F S32x1x1024x1024 .f32 :=
  uitofp .f32 (cmpf .ogt er (broadcastInDim S32x1x1024x1024 ![] bcast_S_S32x1x1024x1024 (constant S_ .f32 0x00000000#32)))

/-- The distance of the two kept edge values, entry by entry. -/
def termOf (ef er : FVec F S32x1x1024x1024 .f32) : FVec F S32x1x1024x1024 .f32 :=
  Host.absf (subf (mulf ef (keepOf er)) (mulf er (keepOf er)))

/-- The sum of every entry, onto a zero. -/
def total (v : FVec F S32x1x1024x1024 .f32) : FVec F S_ .f32 :=
  Host.reduceAdd v (constant S_ .f32 0x00000000#32) reducesTo_S32x1x1024x1024_S_d0_1_2_3 h_S_

/-- The quotient by the count of kept entries, then by the number of images. -/
def quot (n k : FVec F S_ .f32) : FVec F S_ .f32 :=
  Host.divf (Host.divf n k) (constant S_ .f32 0x42000000#32)

/-- The reference's result. -/
def lossOf (xf xr : FVec F S32x1x1024x1024 .f32) : FVec F S_ .f32 :=
  quot (total (termOf (edgeOf xf) (edgeOf xr))) (total (keepOf (edgeOf xr)))

end Cert.ReferenceIdeal.Term

end
-- ==== Proof.RefRun.lean ====
/-
  The reference program's run, read back.

  The program's entry function is a straight line of seventy-five tensor operations once the three private
  functions it calls are substituted at their call sites: the padding function (sixteen operations: two copies of the
  first row, the reversal of one along its one-entry axis, the concatenation in front, the same for the last row
  behind, then the same four steps twice more for the first and the last column) is called once per argument, and
  each of its four reversals is a call of a one-operation function. `ops` lists the operations in order, each over
  the buffers its call site names. Every weakly fair execution of the entry function terminates with every buffer at
  the fold of the operations' results over the launch contents; read at the result buffer, the fold is the pure term
  `Term.lossOf` of the two arguments' contents, each operation contributing exactly one stage of that term, and
  the arguments' own buffers are written by no operation.
-/
import proofs.«166740_j43104291783230_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The entry function's seventy-five operations in order, the calls substituted: the first argument's images
    flattened to a stack of matrices, padded (sixteen operations), smoothed along the rows, differenced along the
    columns and given back their unit axis (twelve); the same thirty for the second argument; then the mask of the
    second edge map's positive entries, the two masked edge maps, the absolute difference, the two sums and the two
    quotients (fifteen). -/
abbrev ops : List (HloOp τ sig (Elt F)) :=
    (reshape main_arg0 main_v0 rfl shapeCasts_S32x1x1024x1024_S32x1024x1024) ::
    (nullary main_c (constantI S_ 32 0#32)) ::
    (TRef.unary (.of main_v0 : TRef sig ⟨S32x1024x1024, .f32⟩) main_call0.v0 (extractStridedSlice S32x1x1024 ![0, 0, 0] · slices_S32x1024x1024_S32x1x1024_0_0_0)) ::
    (TRef.unary (.of main_v0 : TRef sig ⟨S32x1024x1024, .f32⟩) main_call0.v1 (extractStridedSlice S32x1x1024 ![0, 0, 0] · slices_S32x1024x1024_S32x1x1024_0_0_0)) ::
    (TRef.unary main_call0.v1 main_call0.call0.v0 (Host.reverse [1])) ::
    (TRef.binary main_call0.call0.v0 (.of main_v0 : TRef sig ⟨S32x1024x1024, .f32⟩) main_call0.v3 (fun a b => concatenate S32x1025x1024 1 [⟨S32x1x1024, a⟩, ⟨S32x1024x1024, b⟩] concatenates_S32x1x1024_S32x1024x1024_S32x1025x1024_d1)) ::
    (TRef.unary main_call0.v3 main_call0.v4 (extractStridedSlice S32x1x1024 ![0, 1024, 0] · slices_S32x1025x1024_S32x1x1024_0_1024_0)) ::
    (TRef.unary main_call0.v3 main_call0.v5 (extractStridedSlice S32x1x1024 ![0, 1024, 0] · slices_S32x1025x1024_S32x1x1024_0_1024_0)) ::
    (TRef.unary main_call0.v5 main_call0.call1.v0 (Host.reverse [1])) ::
    (TRef.binary main_call0.v3 main_call0.call1.v0 main_call0.v7 (fun a b => concatenate S32x1026x1024 1 [⟨S32x1025x1024, a⟩, ⟨S32x1x1024, b⟩] concatenates_S32x1025x1024_S32x1x1024_S32x1026x1024_d1)) ::
    (TRef.unary main_call0.v7 main_call0.v8 (extractStridedSlice S32x1026x1 ![0, 0, 0] · slices_S32x1026x1024_S32x1026x1_0_0_0)) ::
    (TRef.unary main_call0.v7 main_call0.v9 (extractStridedSlice S32x1026x1 ![0, 0, 0] · slices_S32x1026x1024_S32x1026x1_0_0_0)) ::
    (TRef.unary main_call0.v9 main_call0.call2.v0 (Host.reverse [2])) ::
    (TRef.binary main_call0.call2.v0 main_call0.v7 main_call0.v11 (fun a b => concatenate S32x1026x1025 2 [⟨S32x1026x1, a⟩, ⟨S32x1026x1024, b⟩] concatenates_S32x1026x1_S32x1026x1024_S32x1026x1025_d2)) ::
    (TRef.unary main_call0.v11 main_call0.v12 (extractStridedSlice S32x1026x1 ![0, 0, 1024] · slices_S32x1026x1025_S32x1026x1_0_0_1024)) ::
    (TRef.unary main_call0.v11 main_call0.v13 (extractStridedSlice S32x1026x1 ![0, 0, 1024] · slices_S32x1026x1025_S32x1026x1_0_0_1024)) ::
    (TRef.unary main_call0.v13 main_call0.call3.v0 (Host.reverse [2])) ::
    (TRef.binary main_call0.v11 main_call0.call3.v0 main_call0.v15 (fun a b => concatenate S32x1026x1026 2 [⟨S32x1026x1025, a⟩, ⟨S32x1026x1, b⟩] concatenates_S32x1026x1025_S32x1026x1_S32x1026x1026_d2)) ::
    (unary main_v1 main_v2 ((extractStridedSlice S32x1024x1026 ![0, 0, 0] · slices_S32x1026x1026_S32x1024x1026_0_0_0) : (⟨S32x1026x1026, .f32⟩ : BufTy).Contents (Elt F) → (⟨S32x1024x1026, .f32⟩ : BufTy).Contents (Elt F))) ::
    (unary main_v1 main_v3 ((extractStridedSlice S32x1024x1026 ![0, 1, 0] · slices_S32x1026x1026_S32x1024x1026_0_1_0) : (⟨S32x1026x1026, .f32⟩ : BufTy).Contents (Elt F) → (⟨S32x1024x1026, .f32⟩ : BufTy).Contents (Elt F))) ::
    (nullary main_cst (constant S_ .f32 0x40000000#32)) ::
    (unary main_cst main_v4 (broadcastInDim S32x1024x1026 ![] bcast_S_S32x1024x1026 : (⟨S_, .f32⟩ : BufTy).Contents (Elt F) → (⟨S32x1024x1026, .f32⟩ : BufTy).Contents (Elt F))) ::
    (binary main_v4 main_v3 main_v5 (mulf : (⟨S32x1024x1026, .f32⟩ : BufTy).Contents (Elt F) → (⟨S32x1024x1026, .f32⟩ : BufTy).Contents (Elt F) → (⟨S32x1024x1026, .f32⟩ : BufTy).Contents (Elt F))) ::
    (binary main_v2 main_v5 main_v6 (addf : (⟨S32x1024x1026, .f32⟩ : BufTy).Contents (Elt F) → (⟨S32x1024x1026, .f32⟩ : BufTy).Contents (Elt F) → (⟨S32x1024x1026, .f32⟩ : BufTy).Contents (Elt F))) ::
    (unary main_v1 main_v7 ((extractStridedSlice S32x1024x1026 ![0, 2, 0] · slices_S32x1026x1026_S32x1024x1026_0_2_0) : (⟨S32x1026x1026, .f32⟩ : BufTy).Contents (Elt F) → (⟨S32x1024x1026, .f32⟩ : BufTy).Contents (Elt F))) ::
    (binary main_v6 main_v7 main_v8 (addf : (⟨S32x1024x1026, .f32⟩ : BufTy).Contents (Elt F) → (⟨S32x1024x1026, .f32⟩ : BufTy).Contents (Elt F) → (⟨S32x1024x1026, .f32⟩ : BufTy).Contents (Elt F))) ::
    (unary main_v8 main_v9 ((extractStridedSlice S32x1024x1024 ![0, 0, 2] · slices_S32x1024x1026_S32x1024x1024_0_0_2) : (⟨S32x1024x1026, .f32⟩ : BufTy).Contents (Elt F) → (⟨S32x1024x1024, .f32⟩ : BufTy).Contents (Elt F))) ::
    (unary main_v8 main_v10 ((extractStridedSlice S32x1024x1024 ![0, 0, 0] · slices_S32x1024x1026_S32x1024x1024_0_0_0) : (⟨S32x1024x1026, .f32⟩ : BufTy).Contents (Elt F) → (⟨S32x1024x1024, .f32⟩ : BufTy).Contents (Elt F))) ::
    (binary main_v9 main_v10 main_v11 (subf : (⟨S32x1024x1024, .f32⟩ : BufTy).Contents (Elt F) → (⟨S32x1024x1024, .f32⟩ : BufTy).Contents (Elt F) → (⟨S32x1024x1024, .f32⟩ : BufTy).Contents (Elt F))) ::
    (unary main_v11 main_v12 (broadcastInDim S32x1x1024x1024 ![0, 2, 3] bcast_S32x1024x1024_S32x1x1024x1024_0_2_3 : (⟨S32x1024x1024, .f32⟩ : BufTy).Contents (Elt F) → (⟨S32x1x1024x1024, .f32⟩ : BufTy).Contents (Elt F))) ::
    (reshape main_arg1 main_v13 rfl shapeCasts_S32x1x1024x1024_S32x1024x1024) ::
    (nullary main_c_0 (constantI S_ 32 0#32)) ::
    (TRef.unary (.of main_v13 : TRef sig ⟨S32x1024x1024, .f32⟩) main_call1.v0 (extractStridedSlice S32x1x1024 ![0, 0, 0] · slices_S32x1024x1024_S32x1x1024_0_0_0)) ::
    (TRef.unary (.of main_v13 : TRef sig ⟨S32x1024x1024, .f32⟩) main_call1.v1 (extractStridedSlice S32x1x1024 ![0, 0, 0] · slices_S32x1024x1024_S32x1x1024_0_0_0)) ::
    (TRef.unary main_call1.v1 main_call1.call0.v0 (Host.reverse [1])) ::
    (TRef.binary main_call1.call0.v0 (.of main_v13 : TRef sig ⟨S32x1024x1024, .f32⟩) main_call1.v3 (fun a b => concatenate S32x1025x1024 1 [⟨S32x1x1024, a⟩, ⟨S32x1024x1024, b⟩] concatenates_S32x1x1024_S32x1024x1024_S32x1025x1024_d1)) ::
    (TRef.unary main_call1.v3 main_call1.v4 (extractStridedSlice S32x1x1024 ![0, 1024, 0] · slices_S32x1025x1024_S32x1x1024_0_1024_0)) ::
    (TRef.unary main_call1.v3 main_call1.v5 (extractStridedSlice S32x1x1024 ![0, 1024, 0] · slices_S32x1025x1024_S32x1x1024_0_1024_0)) ::
    (TRef.unary main_call1.v5 main_call1.call1.v0 (Host.reverse [1])) ::
    (TRef.binary main_call1.v3 main_call1.call1.v0 main_call1.v7 (fun a b => concatenate S32x1026x1024 1 [⟨S32x1025x1024, a⟩, ⟨S32x1x1024, b⟩] concatenates_S32x1025x1024_S32x1x1024_S32x1026x1024_d1)) ::
    (TRef.unary main_call1.v7 main_call1.v8 (extractStridedSlice S32x1026x1 ![0, 0, 0] · slices_S32x1026x1024_S32x1026x1_0_0_0)) ::
    (TRef.unary main_call1.v7 main_call1.v9 (extractStridedSlice S32x1026x1 ![0, 0, 0] · slices_S32x1026x1024_S32x1026x1_0_0_0)) ::
    (TRef.unary main_call1.v9 main_call1.call2.v0 (Host.reverse [2])) ::
    (TRef.binary main_call1.call2.v0 main_call1.v7 main_call1.v11 (fun a b => concatenate S32x1026x1025 2 [⟨S32x1026x1, a⟩, ⟨S32x1026x1024, b⟩] concatenates_S32x1026x1_S32x1026x1024_S32x1026x1025_d2)) ::
    (TRef.unary main_call1.v11 main_call1.v12 (extractStridedSlice S32x1026x1 ![0, 0, 1024] · slices_S32x1026x1025_S32x1026x1_0_0_1024)) ::
    (TRef.unary main_call1.v11 main_call1.v13 (extractStridedSlice S32x1026x1 ![0, 0, 1024] · slices_S32x1026x1025_S32x1026x1_0_0_1024)) ::
    (TRef.unary main_call1.v13 main_call1.call3.v0 (Host.reverse [2])) ::
    (TRef.binary main_call1.v11 main_call1.call3.v0 main_call1.v15 (fun a b => concatenate S32x1026x1026 2 [⟨S32x1026x1025, a⟩, ⟨S32x1026x1, b⟩] concatenates_S32x1026x1025_S32x1026x1_S32x1026x1026_d2)) ::
    (unary main_v14 main_v15 ((extractStridedSlice S32x1024x1026 ![0, 0, 0] · slices_S32x1026x1026_S32x1024x1026_0_0_0) : (⟨S32x1026x1026, .f32⟩ : BufTy).Contents (Elt F) → (⟨S32x1024x1026, .f32⟩ : BufTy).Contents (Elt F))) ::
    (unary main_v14 main_v16 ((extractStridedSlice S32x1024x1026 ![0, 1, 0] · slices_S32x1026x1026_S32x1024x1026_0_1_0) : (⟨S32x1026x1026, .f32⟩ : BufTy).Contents (Elt F) → (⟨S32x1024x1026, .f32⟩ : BufTy).Contents (Elt F))) ::
    (nullary main_cst_1 (constant S_ .f32 0x40000000#32)) ::
    (unary main_cst_1 main_v17 (broadcastInDim S32x1024x1026 ![] bcast_S_S32x1024x1026 : (⟨S_, .f32⟩ : BufTy).Contents (Elt F) → (⟨S32x1024x1026, .f32⟩ : BufTy).Contents (Elt F))) ::
    (binary main_v17 main_v16 main_v18 (mulf : (⟨S32x1024x1026, .f32⟩ : BufTy).Contents (Elt F) → (⟨S32x1024x1026, .f32⟩ : BufTy).Contents (Elt F) → (⟨S32x1024x1026, .f32⟩ : BufTy).Contents (Elt F))) ::
    (binary main_v15 main_v18 main_v19 (addf : (⟨S32x1024x1026, .f32⟩ : BufTy).Contents (Elt F) → (⟨S32x1024x1026, .f32⟩ : BufTy).Contents (Elt F) → (⟨S32x1024x1026, .f32⟩ : BufTy).Contents (Elt F))) ::
    (unary main_v14 main_v20 ((extractStridedSlice S32x1024x1026 ![0, 2, 0] · slices_S32x1026x1026_S32x1024x1026_0_2_0) : (⟨S32x1026x1026, .f32⟩ : BufTy).Contents (Elt F) → (⟨S32x1024x1026, .f32⟩ : BufTy).Contents (Elt F))) ::
    (binary main_v19 main_v20 main_v21 (addf : (⟨S32x1024x1026, .f32⟩ : BufTy).Contents (Elt F) → (⟨S32x1024x1026, .f32⟩ : BufTy).Contents (Elt F) → (⟨S32x1024x1026, .f32⟩ : BufTy).Contents (Elt F))) ::
    (unary main_v21 main_v22 ((extractStridedSlice S32x1024x1024 ![0, 0, 2] · slices_S32x1024x1026_S32x1024x1024_0_0_2) : (⟨S32x1024x1026, .f32⟩ : BufTy).Contents (Elt F) → (⟨S32x1024x1024, .f32⟩ : BufTy).Contents (Elt F))) ::
    (unary main_v21 main_v23 ((extractStridedSlice S32x1024x1024 ![0, 0, 0] · slices_S32x1024x1026_S32x1024x1024_0_0_0) : (⟨S32x1024x1026, .f32⟩ : BufTy).Contents (Elt F) → (⟨S32x1024x1024, .f32⟩ : BufTy).Contents (Elt F))) ::
    (binary main_v22 main_v23 main_v24 (subf : (⟨S32x1024x1024, .f32⟩ : BufTy).Contents (Elt F) → (⟨S32x1024x1024, .f32⟩ : BufTy).Contents (Elt F) → (⟨S32x1024x1024, .f32⟩ : BufTy).Contents (Elt F))) ::
    (unary main_v24 main_v25 (broadcastInDim S32x1x1024x1024 ![0, 2, 3] bcast_S32x1024x1024_S32x1x1024x1024_0_2_3 : (⟨S32x1024x1024, .f32⟩ : BufTy).Contents (Elt F) → (⟨S32x1x1024x1024, .f32⟩ : BufTy).Contents (Elt F))) ::
    (nullary main_cst_2 (constant S_ .f32 0x00000000#32)) ::
    (unary main_cst_2 main_v26 (broadcastInDim S32x1x1024x1024 ![] bcast_S_S32x1x1024x1024 : (⟨S_, .f32⟩ : BufTy).Contents (Elt F) → (⟨S32x1x1024x1024, .f32⟩ : BufTy).Contents (Elt F))) ::
    (binary main_v25 main_v26 main_v27 (cmpf .ogt : (⟨S32x1x1024x1024, .f32⟩ : BufTy).Contents (Elt F) → (⟨S32x1x1024x1024, .f32⟩ : BufTy).Contents (Elt F) → (⟨S32x1x1024x1024, .i1⟩ : BufTy).Contents (Elt F))) ::
    (unary main_v27 main_v28 (uitofp .f32 : (⟨S32x1x1024x1024, .i1⟩ : BufTy).Contents (Elt F) → (⟨S32x1x1024x1024, .f32⟩ : BufTy).Contents (Elt F))) ::
    (binary main_v12 main_v28 main_v29 (mulf : (⟨S32x1x1024x1024, .f32⟩ : BufTy).Contents (Elt F) → (⟨S32x1x1024x1024, .f32⟩ : BufTy).Contents (Elt F) → (⟨S32x1x1024x1024, .f32⟩ : BufTy).Contents (Elt F))) ::
    (binary main_v25 main_v28 main_v30 (mulf : (⟨S32x1x1024x1024, .f32⟩ : BufTy).Contents (Elt F) → (⟨S32x1x1024x1024, .f32⟩ : BufTy).Contents (Elt F) → (⟨S32x1x1024x1024, .f32⟩ : BufTy).Contents (Elt F))) ::
    (binary main_v29 main_v30 main_v31 (subf : (⟨S32x1x1024x1024, .f32⟩ : BufTy).Contents (Elt F) → (⟨S32x1x1024x1024, .f32⟩ : BufTy).Contents (Elt F) → (⟨S32x1x1024x1024, .f32⟩ : BufTy).Contents (Elt F))) ::
    (unary main_v31 main_v32 (Host.absf : (⟨S32x1x1024x1024, .f32⟩ : BufTy).Contents (Elt F) → (⟨S32x1x1024x1024, .f32⟩ : BufTy).Contents (Elt F))) ::
    (nullary main_cst_3 (constant S_ .f32 0x00000000#32)) ::
    (binary main_v32 main_cst_3 main_v33 ((fun x v => Host.reduceAdd x v reducesTo_S32x1x1024x1024_S_d0_1_2_3 h_S_) : (⟨S32x1x1024x1024, .f32⟩ : BufTy).Contents (Elt F) → (⟨S_, .f32⟩ : BufTy).Contents (Elt F) → (⟨S_, .f32⟩ : BufTy).Contents (Elt F))) ::
    (nullary main_cst_4 (constant S_ .f32 0x00000000#32)) ::
    (binary main_v28 main_cst_4 main_v34 ((fun x v => Host.reduceAdd x v reducesTo_S32x1x1024x1024_S_d0_1_2_3 h_S_) : (⟨S32x1x1024x1024, .f32⟩ : BufTy).Contents (Elt F) → (⟨S_, .f32⟩ : BufTy).Contents (Elt F) → (⟨S_, .f32⟩ : BufTy).Contents (Elt F))) ::
    (binary main_v33 main_v34 main_v35 (Host.divf : (⟨S_, .f32⟩ : BufTy).Contents (Elt F) → (⟨S_, .f32⟩ : BufTy).Contents (Elt F) → (⟨S_, .f32⟩ : BufTy).Contents (Elt F))) ::
    (nullary main_cst_5 (constant S_ .f32 0x42000000#32)) ::
    (binary main_v35 main_cst_5 main_v36 (Host.divf : (⟨S_, .f32⟩ : BufTy).Contents (Elt F) → (⟨S_, .f32⟩ : BufTy).Contents (Elt F) → (⟨S_, .f32⟩ : BufTy).Contents (Elt F))) :: []

/-- The entry function is that straight line, by computation: a private function's body applied to its call's
    buffers IS its operations over them, and a step sequenced before a continuation is the step continued by it, so
    both sides are the same chain of seventy-five operation steps ending in the return. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., binary_bufs_sub .., unary_bufs_sub .., unary_bufs_sub .., binary_bufs_sub .., unary_bufs_sub .., reshape_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., binary_bufs_sub .., nullary_bufs_sub .., binary_bufs_sub ..⟩

attribute [local irreducible] Host.reduceAdd concatenate extractStridedSlice Host.reverse broadcastInDim shapeCast in
set_option maxRecDepth 16384 in
set_option maxHeartbeats 1600000 in
/-- The fold at the result buffer is the pure term: the fold unrolled, each operation's result decides whether the
    buffer read is the one it writes, and each stage of the term is one operation's function applied to the stages
    before it. The layout operations and the sum are kept folded meanwhile: the equation never looks inside them. -/
theorem out_eq (V : Valuation τ sig (Elt F)) :
    after ops V (main_v36 : DevRef τ sig)
      = Term.lossOf (V (main_arg0 : DevRef τ sig)) (V (main_arg1 : DevRef τ sig)) := by
  simp only [after_cons, after_nil]
  rfl

set_option maxRecDepth 16384 in
/-- No operation writes the first argument's buffer. -/
theorem arg0_eq (V : Valuation τ sig (Elt F)) :
    after ops V (main_arg0 : DevRef τ sig) = V (main_arg0 : DevRef τ sig) := by
  simp only [after_cons, after_nil]
  rfl

set_option maxRecDepth 16384 in
/-- No operation writes the second argument's buffer. -/
theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of the
    entry function terminates with the result buffer at the pure term of the two arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = Term.lossOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Run

end
-- ==== Proof.RefPad.lean ====
/-
  The reference's padding read at an index.

  The padded array has 1026 rows and 1026 columns per image. Row r of it is row r - 1 of the image, except
  that row 0 repeats the image's first row and row 1025 its last one; columns likewise. With natural-number
  subtraction (0 - 1 = 0) and a cap at 1023 the image row under padded row r is min (r - 1) 1023 (`clampIx`).

  Each side's pad is one row (column) cut out of the array, reversed along that one-entry axis, and put in
  front of or behind the array. Reversing an axis with one entry moves nothing: the only coordinate there is 0
  and its mirror image is 0 again. So every stage reads, at each index, one entry of its operand, and the
  stages compose to the clamped index on both axes.
-/
import proofs.«166740_j43104291783230_1_alg».proof.Proof.RefTerm
import Idealize.ShloMosaic.Lib.Pipeline.Value
import Idealize.ShloMosaic.Lib.ValueIdx

noncomputable section

namespace Cert.ReferenceIdeal.Pad

open Cert.ReferenceIdeal Cert.ReferenceIdeal.Gen Cert.ReferenceIdeal.Term Idealize.ShloMosaic Idealize.ShloMosaic.ValueIdx

variable {F : FTy → Type} [FloatOps F]

/-- The image row (column) under row (column) `r` of the padded array: `r - 1`, the first and the last repeated. -/
def clampIx (r : Fin 1026) : Fin 1024 := ⟨min (r.val - 1) 1023, by omega⟩

theorem clampIx_val (r : Fin 1026) : (clampIx r).val = min (r.val - 1) 1023 := rfl

/-- The pad in front of the rows is the first row, whatever its one coordinate is called. -/
theorem topRow_apply (x : FVec F S32x1024x1024 .f32) (b : Fin 32) (z : Fin 1) (c : Fin 1024) :
    topRow x (ix3 b z c) = x (ix3 b (0 : Fin 1024) c) := by
  unfold topRow Host.reverse
  refine extractStridedSlice_apply _ x _ _ (ix3 b (0 : Fin 1024) c) fun a => ?_
  match a with
  | ⟨0, _⟩ => show b.val = 0 + b.val; omega
  | ⟨1, _⟩ => show 0 = 0 + (z.rev).val; have := z.rev.isLt; omega
  | ⟨2, _⟩ => show c.val = 0 + c.val; omega

/-- The rows with the first one repeated in front: row `r` is image row `r - 1`. -/
theorem withTop_apply (x : FVec F S32x1024x1024 .f32) (b : Fin 32) (r : Fin 1025) (c : Fin 1024) :
    withTop x (ix3 b r c) = x (ix3 b (⟨r.val - 1, by have := r.isLt; omega⟩ : Fin 1024) c) := by
  have hr : r.val < 1025 := r.isLt
  unfold withTop
  by_cases h0 : r.val = 0
  · refine (concatenate_pair_apply_left 1 (topRow x) x _ (ix3 b r c) rfl (ix3 b (0 : Fin 1) c) fun a => ?_).trans ?_
    · match a with
      | ⟨0, _⟩ => rfl
      | ⟨1, _⟩ => show 0 = r.val; omega
      | ⟨2, _⟩ => rfl
    · rw [topRow_apply]
      congr 1
      funext a
      match a with
      | ⟨0, _⟩ => rfl
      | ⟨1, _⟩ => exact Fin.ext (by show 0 = r.val - 1; omega)
      | ⟨2, _⟩ => rfl
  · refine concatenate_pair_apply_right 1 (topRow x) x _ (ix3 b r c) rfl rfl
      (ix3 b (⟨r.val - 1, by omega⟩ : Fin 1024) c) (fun a ha => ?_) ?_
    · match a with
      | ⟨0, _⟩ => rfl
      | ⟨1, _⟩ => exact absurd rfl ha
      | ⟨2, _⟩ => rfl
    · show (r.val - 1) + 1 = r.val
      omega

/-- The pad behind the rows is the last row of what it is cut from, whatever its one coordinate is called. -/
theorem botRow_apply (y : FVec F S32x1025x1024 .f32) (b : Fin 32) (z : Fin 1) (c : Fin 1024) :
    botRow y (ix3 b z c) = y (ix3 b (⟨1024, by omega⟩ : Fin 1025) c) := by
  unfold botRow Host.reverse
  refine extractStridedSlice_apply _ y _ _ (ix3 b (⟨1024, by omega⟩ : Fin 1025) c) fun a => ?_
  match a with
  | ⟨0, _⟩ => show b.val = 0 + b.val; omega
  | ⟨1, _⟩ => show 1024 = 1024 + (z.rev).val; have := z.rev.isLt; omega
  | ⟨2, _⟩ => show c.val = 0 + c.val; omega

/-- The rows padded on both sides: row `r` is image row `r - 1`, the first and the last repeated. -/
theorem padRows_apply (x : FVec F S32x1024x1024 .f32) (b : Fin 32) (r : Fin 1026) (c : Fin 1024) :
    padRows x (ix3 b r c) = x (ix3 b (clampIx r) c) := by
  have hr : r.val < 1026 := r.isLt
  unfold padRows
  by_cases h : r.val < 1025
  · refine (concatenate_pair_apply_left 1 (withTop x) (botRow (withTop x)) _ (ix3 b r c) rfl
      (ix3 b (⟨r.val, h⟩ : Fin 1025) c) fun a => ?_).trans ?_
    · match a with
      | ⟨0, _⟩ => rfl
      | ⟨1, _⟩ => rfl
      | ⟨2, _⟩ => rfl
    · rw [withTop_apply]
      exact congrArg (fun q : Fin 1024 => x (ix3 b q c)) (Fin.ext (by show r.val - 1 = min (r.val - 1) 1023; omega))
  · refine (concatenate_pair_apply_right 1 (withTop x) (botRow (withTop x)) _ (ix3 b r c) rfl rfl
      (ix3 b (0 : Fin 1) c) (fun a ha => ?_) ?_).trans ?_
    · match a with
      | ⟨0, _⟩ => rfl
      | ⟨1, _⟩ => exact absurd rfl ha
      | ⟨2, _⟩ => rfl
    · show 0 + 1025 = r.val
      omega
    · rw [botRow_apply, withTop_apply]
      exact congrArg (fun q : Fin 1024 => x (ix3 b q c)) (Fin.ext (by show 1024 - 1 = min (r.val - 1) 1023; omega))

/-- The pad in front of the columns is the first column, whatever its one coordinate is called. -/
theorem leftCol_apply (y : FVec F S32x1026x1024 .f32) (b : Fin 32) (r : Fin 1026) (z : Fin 1) :
    leftCol y (ix3 b r z) = y (ix3 b r (0 : Fin 1024)) := by
  unfold leftCol Host.reverse
  refine extractStridedSlice_apply _ y _ _ (ix3 b r (0 : Fin 1024)) fun a => ?_
  match a with
  | ⟨0, _⟩ => show b.val = 0 + b.val; omega
  | ⟨1, _⟩ => show r.val = 0 + r.val; omega
  | ⟨2, _⟩ => show 0 = 0 + (z.rev).val; have := z.rev.isLt; omega

/-- The columns with the first one repeated in front: column `c` is column `c - 1`. -/
theorem withLeft_apply (y : FVec F S32x1026x1024 .f32) (b : Fin 32) (r : Fin 1026) (c : Fin 1025) :
    withLeft y (ix3 b r c) = y (ix3 b r (⟨c.val - 1, by have := c.isLt; omega⟩ : Fin 1024)) := by
  have hc : c.val < 1025 := c.isLt
  unfold withLeft
  by_cases h0 : c.val = 0
  · refine (concatenate_pair_apply_left 2 (leftCol y) y _ (ix3 b r c) rfl (ix3 b r (0 : Fin 1)) fun a => ?_).trans ?_
    · match a with
      | ⟨0, _⟩ => rfl
      | ⟨1, _⟩ => rfl
      | ⟨2, _⟩ => show 0 = c.val; omega
    · rw [leftCol_apply]
      exact congrArg (fun q : Fin 1024 => y (ix3 b r q)) (Fin.ext (by show 0 = c.val - 1; omega))
  · refine concatenate_pair_apply_right 2 (leftCol y) y _ (ix3 b r c) rfl rfl
      (ix3 b r (⟨c.val - 1, by omega⟩ : Fin 1024)) (fun a ha => ?_) ?_
    · match a with
      | ⟨0, _⟩ => rfl
      | ⟨1, _⟩ => rfl
      | ⟨2, _⟩ => exact absurd rfl ha
    · show (c.val - 1) + 1 = c.val
      omega

/-- The pad behind the columns is the last column of what it is cut from, whatever its one coordinate is called. -/
theorem rightCol_apply (z : FVec F S32x1026x1025 .f32) (b : Fin 32) (r : Fin 1026) (u : Fin 1) :
    rightCol z (ix3 b r u) = z (ix3 b r (⟨1024, by omega⟩ : Fin 1025)) := by
  unfold rightCol Host.reverse
  refine extractStridedSlice_apply _ z _ _ (ix3 b r (⟨1024, by omega⟩ : Fin 1025)) fun a => ?_
  match a with
  | ⟨0, _⟩ => show b.val = 0 + b.val; omega
  | ⟨1, _⟩ => show r.val = 0 + r.val; omega
  | ⟨2, _⟩ => show 1024 = 1024 + (u.rev).val; have := u.rev.isLt; omega

/-- The columns padded on both sides: column `c` is column `c - 1`, the first and the last repeated. -/
theorem padCols_apply (y : FVec F S32x1026x1024 .f32) (b : Fin 32) (r c : Fin 1026) :
    padCols y (ix3 b r c) = y (ix3 b r (clampIx c)) := by
  have hc : c.val < 1026 := c.isLt
  unfold padCols
  by_cases h : c.val < 1025
  · refine (concatenate_pair_apply_left 2 (withLeft y) (rightCol (withLeft y)) _ (ix3 b r c) rfl
      (ix3 b r (⟨c.val, h⟩ : Fin 1025)) fun a => ?_).trans ?_
    · match a with
      | ⟨0, _⟩ => rfl
      | ⟨1, _⟩ => rfl
      | ⟨2, _⟩ => rfl
    · rw [withLeft_apply]
      exact congrArg (fun q : Fin 1024 => y (ix3 b r q)) (Fin.ext (by show c.val - 1 = min (c.val - 1) 1023; omega))
  · refine (concatenate_pair_apply_right 2 (withLeft y) (rightCol (withLeft y)) _ (ix3 b r c) rfl rfl
      (ix3 b r (0 : Fin 1)) (fun a ha => ?_) ?_).trans ?_
    · match a with
      | ⟨0, _⟩ => rfl
      | ⟨1, _⟩ => rfl
      | ⟨2, _⟩ => exact absurd rfl ha
    · show 0 + 1025 = c.val
      omega
    · rw [rightCol_apply, withLeft_apply]
      exact congrArg (fun q : Fin 1024 => y (ix3 b r q)) (Fin.ext (by show 1024 - 1 = min (c.val - 1) 1023; omega))

/-- Both image axes padded: entry (r, c) of the padded array is the image's entry at the clamped row and column. -/
theorem padOf_apply (x : FVec F S32x1024x1024 .f32) (b : Fin 32) (r c : Fin 1026) :
    padOf x (ix3 b r c) = x (ix3 b (clampIx r) (clampIx c)) := by
  unfold padOf
  rw [padCols_apply, padRows_apply]

end Cert.ReferenceIdeal.Pad

end
-- ==== Proof.RefValue.lean ====
/-
  The reference's result as the specification, over the extended reals.

  Read at an index, every stage of the reference is its textbook operation. The edge map at image b, row h,
  column w: the stack is first seen without its one-entry channel axis; the padded array's entry (r, c) is the
  image's entry at the clamped row and column; the smoothing adds padded rows h, h + 1 (doubled) and h + 2,
  whose clamped rows are the row before h (the first repeated), h itself, and the row after h (the last
  repeated); the difference subtracts padded column w from padded column w + 2, whose clamped columns are the
  column before w and the column after w. That is the edge map of the specification. The mask, the distance
  and the totals are read entry by entry, and a sum over every entry of the stack is the sum over images, rows
  and columns.
-/
import proofs.«166740_j43104291783230_1_alg».proof.Proof.RefPad
import proofs.«166740_j43104291783230_1_alg».proof.Proof.Sobel
import Idealize.ShloMosaic.Lib.IdealHost
import Idealize.ShloMosaic.PureOps.Ideal.Laws
import Idealize.ShloMosaic.Lib.Pipeline.Value
import Idealize.ShloMosaic.Lib.ValueIdx

noncomputable section

namespace Cert.ReferenceIdeal.Value

open Cert.ReferenceIdeal Cert.ReferenceIdeal.Gen Cert.ReferenceIdeal.Term Cert.ReferenceIdeal.Pad
open Idealize.ShloMosaic Idealize.ShloMosaic.ValueIdx Cert.Sobel
open scoped BigOperators

/-- The clamped row under padded row `h` is the row before `h`, the first repeated. -/
theorem clamp_zero (h : Fin 1024) : clampIx (⟨h.val, by have := h.isLt; omega⟩ : Fin 1026) = up h :=
  Fin.ext (by have := h.isLt; show min (h.val - 1) 1023 = h.val - 1; omega)

/-- The clamped row under padded row `h + 1` is `h`. -/
theorem clamp_one (h : Fin 1024) : clampIx (⟨h.val + 1, by have := h.isLt; omega⟩ : Fin 1026) = h :=
  Fin.ext (by have := h.isLt; show min (h.val + 1 - 1) 1023 = h.val; omega)

/-- The clamped row under padded row `h + 2` is the row after `h`, the last repeated. -/
theorem clamp_two (h : Fin 1024) : clampIx (⟨h.val + 2, by have := h.isLt; omega⟩ : Fin 1026) = dn h :=
  Fin.ext (by have := h.isLt; show min (h.val + 2 - 1) 1023 = min (h.val + 1) 1023; omega)

/-- The stack without its channel axis: entry (b, h, w) is entry (b, 0, h, w). -/
theorem cast_apply (x : FVec Ideal S32x1x1024x1024 .f32) (b : Fin 32) (h w : Fin 1024) :
    shapeCast S32x1024x1024 x shapeCasts_S32x1x1024x1024_S32x1024x1024 (ix3 b h w) = x (ix4 b (0 : Fin 1) h w) :=
  shapeCast_apply x _ _ _ (by
    rw [Shape.rowMajor_val_four, Shape.rowMajor_val_three]
    show ((b.val * 1 + 0) * 1024 + h.val) * 1024 + w.val = (b.val * 1024 + h.val) * 1024 + w.val
    omega)

/-- The smoothing at (b, h, c): padded rows h, h + 1 doubled, h + 2 of column c. -/
theorem smoothOf_apply (p : FVec Ideal S32x1026x1026 .f32) (b : Fin 32) (h : Fin 1024) (c : Fin 1026) :
    smoothOf p (ix3 b h c)
      = (p (ix3 b (⟨h.val, by have := h.isLt; omega⟩ : Fin 1026) c)
          + two * p (ix3 b (⟨h.val + 1, by have := h.isLt; omega⟩ : Fin 1026) c))
        + p (ix3 b (⟨h.val + 2, by have := h.isLt; omega⟩ : Fin 1026) c) := by
  have hh : h.val < 1024 := h.isLt
  have e0 : extractStridedSlice S32x1024x1026 ![0, 0, 0] p slices_S32x1026x1026_S32x1024x1026_0_0_0 (ix3 b h c)
      = p (ix3 b (⟨h.val, by omega⟩ : Fin 1026) c) :=
    extractStridedSlice_apply _ p _ _ _ fun a => by
      match a with
      | ⟨0, _⟩ => show b.val = 0 + b.val; omega
      | ⟨1, _⟩ => show h.val = 0 + h.val; omega
      | ⟨2, _⟩ => show c.val = 0 + c.val; omega
  have e1 : extractStridedSlice S32x1024x1026 ![0, 1, 0] p slices_S32x1026x1026_S32x1024x1026_0_1_0 (ix3 b h c)
      = p (ix3 b (⟨h.val + 1, by omega⟩ : Fin 1026) c) :=
    extractStridedSlice_apply _ p _ _ _ fun a => by
      match a with
      | ⟨0, _⟩ => show b.val = 0 + b.val; omega
      | ⟨1, _⟩ => show h.val + 1 = 1 + h.val; omega
      | ⟨2, _⟩ => show c.val = 0 + c.val; omega
  have e2 : extractStridedSlice S32x1024x1026 ![0, 2, 0] p slices_S32x1026x1026_S32x1024x1026_0_2_0 (ix3 b h c)
      = p (ix3 b (⟨h.val + 2, by omega⟩ : Fin 1026) c) :=
    extractStridedSlice_apply _ p _ _ _ fun a => by
      match a with
      | ⟨0, _⟩ => show b.val = 0 + b.val; omega
      | ⟨1, _⟩ => show h.val + 2 = 2 + h.val; omega
      | ⟨2, _⟩ => show c.val = 0 + c.val; omega
  unfold smoothOf
  rw [addf_apply, addf_apply, mulf_apply, broadcastInDim_scalar_apply, constant_apply, e0, e1, e2]

/-- The difference at (b, h, w): column w + 2 less column w. -/
theorem diffOf_apply (s : FVec Ideal S32x1024x1026 .f32) (b : Fin 32) (h w : Fin 1024) :
    diffOf s (ix3 b h w)
      = s (ix3 b h (⟨w.val + 2, by have := w.isLt; omega⟩ : Fin 1026))
        - s (ix3 b h (⟨w.val, by have := w.isLt; omega⟩ : Fin 1026)) := by
  have hw : w.val < 1024 := w.isLt
  have e2 : extractStridedSlice S32x1024x1024 ![0, 0, 2] s slices_S32x1024x1026_S32x1024x1024_0_0_2 (ix3 b h w)
      = s (ix3 b h (⟨w.val + 2, by omega⟩ : Fin 1026)) :=
    extractStridedSlice_apply _ s _ _ _ fun a => by
      match a with
      | ⟨0, _⟩ => show b.val = 0 + b.val; omega
      | ⟨1, _⟩ => show h.val = 0 + h.val; omega
      | ⟨2, _⟩ => show w.val + 2 = 2 + w.val; omega
  have e0 : extractStridedSlice S32x1024x1024 ![0, 0, 0] s slices_S32x1024x1026_S32x1024x1024_0_0_0 (ix3 b h w)
      = s (ix3 b h (⟨w.val, by omega⟩ : Fin 1026)) :=
    extractStridedSlice_apply _ s _ _ _ fun a => by
      match a with
      | ⟨0, _⟩ => show b.val = 0 + b.val; omega
      | ⟨1, _⟩ => show h.val = 0 + h.val; omega
      | ⟨2, _⟩ => show w.val = 0 + w.val; omega
  unfold diffOf
  rw [subf_apply, e2, e0]

/-- The edge map of a stack seen without its channel axis, at (b, h, w): the specification's edge map of image b. -/
theorem edge3_apply (y : FVec Ideal S32x1024x1024 .f32) (b : Fin 32) (h w : Fin 1024) :
    diffOf (smoothOf (padOf y)) (ix3 b h w) = edge (fun h' w' => y (ix3 b h' w')) h w := by
  rw [diffOf_apply, smoothOf_apply, smoothOf_apply]
  simp only [padOf_apply, clamp_zero, clamp_one, clamp_two]
  rfl

/-- The reference's edge map at (b, 0, h, w) is the specification's edge map of image b at (h, w). -/
theorem edgeOf_apply (x : FVec Ideal S32x1x1024x1024 .f32) (b : Fin 32) (h w : Fin 1024) :
    edgeOf x (ix4 b 0 h w) = edge (imgOf x b) h w := by
  unfold edgeOf
  refine (broadcastInDim_apply _ _ _ (ix4 b (0 : Fin 1) h w) (ix3 b h w) fun a => ?_).trans ?_
  · match a with
    | ⟨0, _⟩ => rfl
    | ⟨1, _⟩ => rfl
    | ⟨2, _⟩ => rfl
  · rw [edge3_apply]
    unfold edge smooth imgOf
    simp only [cast_apply]

/-- The reference's edge map at any index of the stack. -/
theorem edgeOf_apply_idx (x : FVec Ideal S32x1x1024x1024 .f32) (i : S32x1x1024x1024.Idx) :
    edgeOf x i = edge (imgOf x (i 0)) (i 2) (i 3) := by
  have hi : i = ix4 (i 0) (0 : Fin 1) (i 2) (i 3) := by
    funext a
    match a with
    | ⟨0, _⟩ => rfl
    | ⟨1, _⟩ => exact Fin.ext (by have h1 : (i 1).val < 1 := (i 1).isLt; show (i 1).val = 0; omega)
    | ⟨2, _⟩ => rfl
    | ⟨3, _⟩ => rfl
  exact (congrArg (edgeOf x) hi).trans (edgeOf_apply x (i 0) (i 2) (i 3))

/-- The mask at an index: one where the entry is positive, zero elsewhere. -/
theorem keepOf_apply (e : FVec Ideal S32x1x1024x1024 .f32) (i : S32x1x1024x1024.Idx) : keepOf e i = keep (e i) := by
  unfold keepOf keep
  show (((Ideal.cmp .ogt (e i) (broadcastInDim S32x1x1024x1024 ![] bcast_S_S32x1x1024x1024 (constant (F := Ideal) S_ .f32 0x00000000#32) i)).toNat : ℝ) : EReal) = _
  rw [broadcastInDim_scalar_apply, constant_apply]

/-- The distance at an index. -/
theorem termOf_apply (ef er : FVec Ideal S32x1x1024x1024 .f32) (i : S32x1x1024x1024.Idx) :
    termOf ef er i = term (ef i) (er i) := by
  unfold termOf term
  rw [← keepOf_apply]
  rfl

/-- The sum of every entry onto the zero. -/
theorem total_apply (v : FVec Ideal S32x1x1024x1024 .f32) (j : S_.Idx) :
    total v j = zero + ∑ i : S32x1x1024x1024.Idx, v i := by
  unfold total
  rw [hostReduceAdd_apply, Ideal.hostReduceAdd_total _ (fun b => b.elim0)]
  rfl

/-- The reference's result: the quotient, by the count of kept entries and by the number of images, of the
    specification's distance. -/
theorem lossOf_eq (xf xr : FVec Ideal S32x1x1024x1024 .f32) :
    lossOf (F := Ideal) xf xr = quot (fun _ => num xf xr) (fun _ => cnt xr) := by
  have hn : total (termOf (edgeOf xf) (edgeOf xr)) = fun _ => num xf xr := by
    funext j
    rw [total_apply]
    unfold num
    refine congrArg (fun s : EReal => zero + s) ?_
    have hs : ∀ i : S32x1x1024x1024.Idx, termOf (edgeOf xf) (edgeOf xr) i
        = (fun (b : Fin 32) (h w : Fin 1024) => term (edge (imgOf xf b) h w) (edge (imgOf xr b) h w)) (i 0) (i 2) (i 3) :=
      fun i => by rw [termOf_apply, edgeOf_apply_idx, edgeOf_apply_idx]
    rw [Finset.sum_congr rfl fun i _ => hs i]
    exact sum_stack fun (b : Fin 32) (h w : Fin 1024) => term (edge (imgOf xf b) h w) (edge (imgOf xr b) h w)
  have hc : total (keepOf (edgeOf xr)) = fun _ => cnt xr := by
    funext j
    rw [total_apply]
    unfold cnt
    refine congrArg (fun s : EReal => zero + s) ?_
    have hs : ∀ i : S32x1x1024x1024.Idx, keepOf (edgeOf xr) i
        = (fun (b : Fin 32) (h w : Fin 1024) => keep (edge (imgOf xr b) h w)) (i 0) (i 2) (i 3) :=
      fun i => by rw [keepOf_apply, edgeOf_apply_idx]
    rw [Finset.sum_congr rfl fun i _ => hs i]
    exact sum_stack fun (b : Fin 32) (h w : Fin 1024) => keep (edge (imgOf xr b) h w)
  unfold lossOf
  rw [hn, hc]

end Cert.ReferenceIdeal.Value

end
-- ==== Proof.lean ====
/-
  The Sobel-edge masked L1 loss: a Pallas kernel against its jnp reference, over the extended reals.

  Both programs take two stacks of 32 one-channel 1024×1024 images. For each image they smooth along the rows
  with weights 1, 2, 1 and difference along the columns two apart, the image continued past its border by
  repeating the nearest edge entry (the reference pads both axes first and then smooths and differences; the
  kernel pads the rows, smooths, then pads the smoothed columns: since the padded column is a copy of the edge
  column and smoothing acts within a column, the two orders give the same entries, and both read
  `Sobel.edge`). An entry of the second stack's edge map is kept when positive; the loss is the sum of
  |e₁·keep − e₂·keep| over every image and entry, divided by the number of kept entries and by 32.

  The kernel visits one image per grid point and adds its two sums onto two one-entry accumulators that start
  from a stored zero (`KernelAcc`: what the accumulators hold point by point; `KernelValue`: at the ideal values
  that is the zero plus the sum over the images so far). The reference reduces the whole stack at once onto a
  zero (`RefRun`: its run; `RefValue`: its result term entry by entry). A finite sum of extended reals does
  not depend on grouping or order (`Sobel.sum_stack`, `Sobel.chain_step`), so both results are the same
  quotient `num / cnt / 32`. No finiteness of the inputs is used: only commutativity and associativity of the
  sum. The kernel's idealization rewrote nothing, so `preserves` asks nothing.
-/
import proofs.«166740_j43104291783230_1_alg».proof.Defs
import proofs.«166740_j43104291783230_1_alg».proof.Proof.Gen.Kernel
import proofs.«166740_j43104291783230_1_alg».proof.Proof.Gen.Kernel.Frame
import proofs.«166740_j43104291783230_1_alg».proof.Proof.Gen.KernelIdeal
import proofs.«166740_j43104291783230_1_alg».proof.Proof.Gen.KernelIdeal.Frame
import proofs.«166740_j43104291783230_1_alg».proof.Proof.Gen.ReferenceIdeal
import proofs.«166740_j43104291783230_1_alg».proof.Proof.Gen.Pre_finite_inputs
import proofs.«166740_j43104291783230_1_alg».proof.Proof.KernelValue
import proofs.«166740_j43104291783230_1_alg».proof.Proof.RefRun
import proofs.«166740_j43104291783230_1_alg».proof.Proof.RefValue

noncomputable section

namespace Cert.Proof

open Idealize.ShloMosaic Idealize.ShloMosaic.TcCoe Idealize.SL.Sem

/-- The kernel as printed runs and leaves its two arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Run.run (F := Ideal) m ρ)

/-- The idealization rewrote no operation. -/
theorem preserves : Cert.preserves_Kernel_KernelIdeal := trivial

/-- From arguments that agree, the kernel ends at `num / cnt / 32` of its arguments (the accumulated sums) and the
    reference at the same quotient of its own (the one reduction, regrouped by image, row and column). -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2, Cert.ReferenceIdeal.Value.lossOf_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
